-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128 : Shape := ⟨1, ![128]⟩
abbrev S256x128 : Shape := ⟨2, ![256, 128]⟩
abbrev S256 : Shape := ⟨1, ![256]⟩
abbrev S256x256 : Shape := ⟨2, ![256, 256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg8 : FVec F S256 .f32) (main_arg9 : FVec F S256x256 .f32) (main_arg10 : FVec F S256x128 .f32) (main_arg11 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg5 : FVec F S256 .f32) (main_arg6 : FVec F S256x128 .f32) (main_arg7 : FVec F S256x256 .f32) (main_arg8 : FVec F S256 .f32) (main_arg9 : FVec F S256x256 .f32) (main_arg10 : FVec F S256x128 .f32) (main_arg11 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S10000x128 .f32) (main_arg1 : IVec S2x640000 32) (main_arg2 : FVec F S128 .f32) (main_arg3 : FVec F S128 .f32) (main_arg4 : FVec F S256x128 .f32) (main_arg5 : FVec F S256 .f32) (main_arg6 : FVec F S256x128 .f32) (main_arg7 : FVec F S256x256 .f32) (main_arg8 : FVec F S256 .f32) (main_arg9 : FVec F S256x256 .f32) (main_arg10 : FVec F S256x128 .f32) (main_arg11 : FVec F S256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_v13 main_v16
-- ==== Kernel.lean ====
abbrev S10000x128 : Shape := ⟨2, ![10000, 128]⟩
abbrev S2x640000 : Shape := ⟨2, ![2, 640000]⟩
abbrev S128 : Shape := ⟨1, ![128]⟩
abbrev S256x128 : Shape := ⟨2, ![256, 128]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S640000x128 : Shape := ⟨2, ![640000, 128]⟩
abbrev S128x256 : Shape := ⟨2, ![128, 256]⟩
abbrev S1x256 : Shape := ⟨2, ![1, 256]⟩
abbrev S10000x256 : Shape := ⟨2, ![10000, 256]⟩
abbrev S2000x128 : Shape := ⟨2, ![2000, 128]⟩
abbrev S2000x256 : Shape := ⟨2, ![2000, 256]⟩
abbrev S640000x256 : Shape := ⟨2, ![640000, 256]⟩

abbrev nBuf : Space → Nat
  | .hbm => 72
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x128, .f32⟩
  | .hbm, ⟨11, _⟩ => ⟨S256, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S1x128, .f32⟩
  | .hbm, ⟨17, _⟩ => ⟨S1x128, .f32⟩
  | .hbm, ⟨18, _⟩ => ⟨S10000x128, .f32⟩
  | .hbm, ⟨19, _⟩ => ⟨S_, .f32⟩
  | .hbm, ⟨20, _⟩ => ⟨S640000, .f32⟩
  | .hbm, ⟨21, _⟩ => ⟨S_, .f32⟩
  | .hbm, ⟨22, _⟩ => ⟨S10000, .f32⟩
  | .hbm, ⟨23, _⟩ => ⟨S640000x1, .i32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S_, .f32⟩
  | .hbm, ⟨42, _⟩ => ⟨S10000x128, .f32⟩
  | .hbm, ⟨43, _⟩ => ⟨S640000x1, .i32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S128x256, .f32⟩
  | .hbm, ⟨48, _⟩ => ⟨S1x256, .f32⟩
  | .hbm, ⟨49, _⟩ => ⟨S128x256, .f32⟩
  | .hbm, ⟨50, _⟩ => ⟨S10000x256, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x256, .f32⟩
  | .hbm, ⟨60, _⟩ => ⟨S_, .f32⟩
  | .hbm, ⟨61, _⟩ => ⟨S10000x256, .f32⟩
  | .hbm, ⟨62, _⟩ => ⟨S640000x1, .i32⟩
  | .hbm, ⟨63, _⟩ => ⟨S10000x256, .f32⟩
  | .hbm, ⟨64, _⟩ => ⟨S10000x256, .f32⟩
  | .hbm, ⟨65, _⟩ => ⟨S10000x256, .f32⟩
  | .hbm, ⟨66, _⟩ => ⟨S256x256, .f32⟩
  | .hbm, ⟨67, _⟩ => ⟨S1x256, .f32⟩
  | .hbm, ⟨68, _⟩ => ⟨S256x256, .f32⟩
  | .hbm, ⟨69, _⟩ => ⟨S128x256, .f32⟩
  | .hbm, ⟨70, _⟩ => ⟨S1x256, .f32⟩
  | .hbm, ⟨71, _⟩ => ⟨S10000x256, .f32⟩
  | .local _ .vmem, ⟨0, _⟩ => ⟨S10000x128, .f32⟩
  | .local _ .vmem, ⟨1, _⟩ => ⟨S1x128, .f32⟩
  | .local _ .vmem, ⟨2, _⟩ => ⟨S1x128, .f32⟩
  | .local _ .vmem, ⟨3, _⟩ => ⟨S10000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x256, .f32⟩
  | .local _ .vmem, ⟨9, _⟩ => ⟨S1x256, .f32⟩
  | .local _ .vmem, ⟨10, _⟩ => ⟨S128x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x128, .f32⟩
  | .local _ .vmem, ⟨18, _⟩ => ⟨S2000x128, .f32⟩
  | .local _ .vmem, ⟨19, _⟩ => ⟨S256x256, .f32⟩
  | .local _ .vmem, ⟨20, _⟩ => ⟨S1x256, .f32⟩
  | .local _ .vmem, ⟨21, _⟩ => ⟨S256x256, .f32⟩
  | .local _ .vmem, ⟨22, _⟩ => ⟨S128x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  broadcasts_S1x128_S10000x128 : S1x128.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  transposes_S256x256_S256x256_1_0 : S256x256.Transposes [1, 0] S256x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S2000x128_S128x256_S2000x256_1_0_0_1_n_n_wf : DotDims.WF S2000x128 S128x256 S2000x256 [1] [0] [0] [1] [] []
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S10000x128.size a
  hwx0_3 : ∀ i : grid0.Coords, EltTy.bits .f32 = 32 ∨ (Rect.block (s := S10000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S10000x256.size a
  hwx1_5 : ∀ i : grid1.Coords, EltTy.bits .f32 = 32 ∨ (Rect.block (s := S10000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S10000x256.size a
  hwx2_0 : ∀ i : grid2.Coords, EltTy.bits .f32 = 32 ∨ (Rect.block (s := S10000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S10000x256.size a
  hwx2_1 : ∀ i : grid2.Coords, EltTy.bits .f32 = 32 ∨ (Rect.block (s := S10000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S10000x128.size a
  hwx2_2 : ∀ i : grid2.Coords, EltTy.bits .f32 = 32 ∨ (Rect.block (s := S10000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x256.size a ≤ S128x256.size a
  hwx2_6 : ∀ i : grid2.Coords, EltTy.bits .f32 = 32 ∨ (Rect.block (s := S128x256) S128x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x256.size a ≤ S10000x256.size a
  hwx2_8 : ∀ i : grid2.Coords, EltTy.bits .f32 = 32 ∨ (Rect.block (s := S10000x256) S2000x256.size (cc2_transform_8 i) (hinb2_8 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S10000x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S128x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v48) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v49) S2000x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128 : Shape := ⟨1, ![128]⟩
abbrev S256x128 : Shape := ⟨2, ![256, 128]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S_ : Shape := ⟨0, ![]⟩
abbrev S1x128 : Shape := ⟨2, ![1, 128]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S128x256 : Shape := ⟨2, ![128, 256]⟩
abbrev S10000x256 : Shape := ⟨2, ![10000, 256]⟩
abbrev S1x256 : Shape := ⟨2, ![1, 256]⟩
abbrev S640000x256 : Shape := ⟨2, ![640000, 256]⟩

abbrev nBuf : Space → Nat
  | .hbm => 121
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x128, .f32⟩
  | .hbm, ⟨11, _⟩ => ⟨S256, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S1x128, .f32⟩
  | .hbm, ⟨31, _⟩ => ⟨S10000x128, .f32⟩
  | .hbm, ⟨32, _⟩ => ⟨S10000x128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S1x128, .f32⟩
  | .hbm, ⟨44, _⟩ => ⟨S10000x128, .f32⟩
  | .hbm, ⟨45, _⟩ => ⟨S10000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S10000x128, .f32⟩
  | .hbm, ⟨57, _⟩ => ⟨S640000x1, .i32⟩
  | .hbm, ⟨58, _⟩ => ⟨S10000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S10000, .f32⟩
  | .hbm, ⟨63, _⟩ => ⟨S640000x1, .i32⟩
  | .hbm, ⟨64, _⟩ => ⟨S10000, .f32⟩
  | .hbm, ⟨65, _⟩ => ⟨S_, .f32⟩
  | .hbm, ⟨66, _⟩ => ⟨S10000, .f32⟩
  | .hbm, ⟨67, _⟩ => ⟨S10000, .f32⟩
  | .hbm, ⟨68, _⟩ => ⟨S10000x1, .f32⟩
  | .hbm, ⟨69, _⟩ => ⟨S10000x128, .f32⟩
  | .hbm, ⟨70, _⟩ => ⟨S10000x128, .f32⟩
  | .hbm, ⟨71, _⟩ => ⟨S128x256, .f32⟩
  | .hbm, ⟨72, _⟩ => ⟨S10000x256, .f32⟩
  | .hbm, ⟨73, _⟩ => ⟨S1x256, .f32⟩
  | .hbm, ⟨74, _⟩ => ⟨S10000x256, .f32⟩
  | .hbm, ⟨75, _⟩ => ⟨S10000x256, .f32⟩
  | .hbm, ⟨76, _⟩ => ⟨S128x256, .f32⟩
  | .hbm, ⟨77, _⟩ => ⟨S10000x256, .f32⟩
  | .hbm, ⟨78, _⟩ => ⟨S10000x256, .f32⟩
  | .hbm, ⟨79, _⟩ => ⟨S_, .f32⟩
  | .hbm, ⟨80, _⟩ => ⟨S10000x256, .f32⟩
  | .hbm, ⟨81, _⟩ => ⟨S10000x256, .f32⟩
  | .hbm, ⟨82, _⟩ => ⟨S_, .i32⟩
  | .hbm, ⟨83, _⟩ => ⟨S640000, .i32⟩
  | .hbm, ⟨84, _⟩ => ⟨S640000, .i1⟩
  | .hbm, ⟨85, _⟩ => ⟨S_, .i32⟩
  | .hbm, ⟨86, _⟩ => ⟨S640000, .i32⟩
  | .hbm, ⟨87, _⟩ => ⟨S640000, .i32⟩
  | .hbm, ⟨88, _⟩ => ⟨S640000, .i32⟩
  | .hbm, ⟨89, _⟩ => ⟨S640000x1, .i32⟩
  | .hbm, ⟨90, _⟩ => ⟨S640000x256, .f32⟩
  | .hbm, ⟨91, _⟩ => ⟨S_, .f32⟩
  | .hbm, ⟨92, _⟩ => ⟨S10000x256, .f32⟩
  | .hbm, ⟨93, _⟩ => ⟨S640000x1, .i32⟩
  | .hbm, ⟨94, _⟩ => ⟨S10000x256, .f32⟩
  | .hbm, ⟨95, _⟩ => ⟨S_, .f32⟩
  | .hbm, ⟨96, _⟩ => ⟨S640000, .f32⟩
  | .hbm, ⟨97, _⟩ => ⟨S_, .f32⟩
  | .hbm, ⟨98, _⟩ => ⟨S10000, .f32⟩
  | .hbm, ⟨99, _⟩ => ⟨S640000x1, .i32⟩
  | .hbm, ⟨100, _⟩ => ⟨S10000, .f32⟩
  | .hbm, ⟨101, _⟩ => ⟨S_, .f32⟩
  | .hbm, ⟨102, _⟩ => ⟨S10000, .f32⟩
  | .hbm, ⟨103, _⟩ => ⟨S10000, .f32⟩
  | .hbm, ⟨104, _⟩ => ⟨S10000x1, .f32⟩
  | .hbm, ⟨105, _⟩ => ⟨S10000x256, .f32⟩
  | .hbm, ⟨106, _⟩ => ⟨S10000x256, .f32⟩
  | .hbm, ⟨107, _⟩ => ⟨S256x256, .f32⟩
  | .hbm, ⟨108, _⟩ => ⟨S10000x256, .f32⟩
  | .hbm, ⟨109, _⟩ => ⟨S1x256, .f32⟩
  | .hbm, ⟨110, _⟩ => ⟨S10000x256, .f32⟩
  | .hbm, ⟨111, _⟩ => ⟨S10000x256, .f32⟩
  | .hbm, ⟨112, _⟩ => ⟨S256x256, .f32⟩
  | .hbm, ⟨113, _⟩ => ⟨S10000x256, .f32⟩
  | .hbm, ⟨114, _⟩ => ⟨S10000x256, .f32⟩
  | .hbm, ⟨115, _⟩ => ⟨S128x256, .f32⟩
  | .hbm, ⟨116, _⟩ => ⟨S10000x256, .f32⟩
  | .hbm, ⟨117, _⟩ => ⟨S10000x256, .f32⟩
  | .hbm, ⟨118, _⟩ => ⟨S1x256, .f32⟩
  | .hbm, ⟨119, _⟩ => ⟨S10000x256, .f32⟩
  | .hbm, ⟨120, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call0_cst : Ref sig .tc := ⟨.hbm, 79, rfl⟩
abbrev main_call0_v0 : Ref sig .tc := ⟨.hbm, 80, rfl⟩
abbrev main_v56 : Ref sig .tc := ⟨.hbm, 81, rfl⟩
abbrev main_c_9 : Ref sig .tc := ⟨.hbm, 82, rfl⟩
abbrev main_v57 : Ref sig .tc := ⟨.hbm, 83, rfl⟩
abbrev main_v58 : Ref sig .tc := ⟨.hbm, 84, rfl⟩
abbrev main_c_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  reducesTo_S10000x128_S128_d0 : S10000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S256x128_S128x256_1_0 : S256x128.Transposes [1, 0] S128x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  transposes_S256x256_S256x256_1_0 : S256x256.Transposes [1, 0] S256x256
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x256_S10000x256_1_0_0_1_n_n_wf : DotDims.WF S10000x128 S128x256 S10000x256 [1] [0] [0] [1] [] []
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1
  dot_S10000x256_S256x256_S10000x256_1_0_0_1_n_n_wf : DotDims.WF S10000x256 S256x256 S10000x256 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.Spec.lean ====
/-
  The mathematics both programs compute, stage by stage, as functions on the extended reals, index by index.

  * `bn`: batch normalisation over the 10000 rows of a [10000, 128] array. Column j's mean is the column's sum divided
    by 10000, its variance the sum of the squared deviations divided by 10000 (the biased variance), and entry (r, j) is
    (x[r,j] − mean_j) · rsqrt(var_j + ε) · γ_j + β_j.
  * `lin1`: the first combine, max((A·Wl)[r,j] + bl_j + (X·Wr)[r,j], 0) with both products over 128 terms.
  * `lin2`: the second combine with the residual, (A·Wl)[r,j] + bl_j + (H·Wr)[r,j] + (X·Ws)[r,j] + bs_j, products
    over 256, 256 and 128 terms.
  * `scale_law`: multiplying by the reciprocal 1/c is dividing by c whenever c ≠ 0 — on all of the extended reals,
    since division off zero IS the product with the inverse.
-/
import Idealize.ShloMosaic.PureOps.Ideal
import Idealize.ShloMosaic.Lib.ValueIdx
import Idealize.ShloMosaic.Lib.IdealHost

noncomputable section

namespace Cert.Spec

open Idealize.ShloMosaic Idealize.ShloMosaic.ValueIdx
open scoped BigOperators

/-- Column j's mean: the column's sum over the 10000 rows divided by the literal 10000.0. -/
def colMean (x : (⟨2, ![10000, 128]⟩ : Shape).Idx → EReal) (j : Fin 128) : EReal :=
  Ideal.div (∑ r : Fin 10000, x (ix2 r j)) (Ideal.ofBits .f32 0x461C4000#32)

/-- Column j's biased variance: the sum of the squared deviations from the mean divided by 10000.0. -/
def colVar (x : (⟨2, ![10000, 128]⟩ : Shape).Idx → EReal) (j : Fin 128) : EReal :=
  Ideal.div (∑ r : Fin 10000, (x (ix2 r j) - colMean x j) * (x (ix2 r j) - colMean x j)) (Ideal.ofBits .f32 0x461C4000#32)

/-- Batch normalisation with scale γ and shift β, entry by entry. -/
def bn (x : (⟨2, ![10000, 128]⟩ : Shape).Idx → EReal) (g b : Fin 128 → EReal) : (⟨2, ![10000, 128]⟩ : Shape).Idx → EReal :=
  fun i => (x i - colMean x (i 1)) * Ideal.rsqrt (colVar x (i 1) + Ideal.ofBits .f32 0x3727C5AC#32) * g (i 1) + b (i 1)

/-- The first combine: two 128-term products, a bias, and the positive part. -/
def lin1 (agg xn : (⟨2, ![10000, 128]⟩ : Shape).Idx → EReal) (wl : (⟨2, ![128, 256]⟩ : Shape).Idx → EReal) (bl : Fin 256 → EReal)
    (wr : (⟨2, ![128, 256]⟩ : Shape).Idx → EReal) : (⟨2, ![10000, 256]⟩ : Shape).Idx → EReal :=
  fun i => max (((∑ k : Fin 128, agg (ix2 (i 0) k) * wl (ix2 k (i 1))) + bl (i 1))
    + ∑ k : Fin 128, xn (ix2 (i 0) k) * wr (ix2 k (i 1))) (Ideal.ofBits .f32 0x00000000#32)

/-- The second combine with the residual shortcut: products over 256, 256 and 128 terms and two biases. -/
def lin2 (agg h : (⟨2, ![10000, 256]⟩ : Shape).Idx → EReal) (x : (⟨2, ![10000, 128]⟩ : Shape).Idx → EReal)
    (wl : (⟨2, ![256, 256]⟩ : Shape).Idx → EReal) (bl : Fin 256 → EReal) (wr : (⟨2, ![256, 256]⟩ : Shape).Idx → EReal)
    (ws : (⟨2, ![128, 256]⟩ : Shape).Idx → EReal) (bs : Fin 256 → EReal) : (⟨2, ![10000, 256]⟩ : Shape).Idx → EReal :=
  fun i => ((((∑ k : Fin 256, agg (ix2 (i 0) k) * wl (ix2 k (i 1))) + bl (i 1))
    + ∑ k : Fin 256, h (ix2 (i 0) k) * wr (ix2 k (i 1)))
    + ∑ k : Fin 128, x (ix2 (i 0) k) * ws (ix2 k (i 1))) + bs (i 1)

/-- Off zero, the product with the reciprocal is the quotient: `x · (1 / c) = x / c` for every extended real `x`
    and every `c ≠ 0`, because `x / c` is `x · c⁻¹` there and `1 / c` is `1 · c⁻¹`. -/
theorem scale_law (x c : EReal) (hc : c ≠ 0) : x * Ideal.div (Ideal.ofBits .f32 0x3F800000#32) c = Ideal.div x c := by
  rw [Ideal.ofBits_one_f32, Ideal.div, Ideal.div, if_neg hc, if_neg hc, one_mul]

/-- A count's floor at one is not zero: `max n 1 ≥ 1 > 0`. -/
theorem max_one_ne_zero (n : EReal) : max n (Ideal.ofBits .f32 0x3F800000#32) ≠ 0 := by
  rw [Ideal.ofBits_one_f32]
  exact (lt_of_lt_of_le zero_lt_one (le_max_right n 1)).ne'

end Cert.Spec

end
-- ==== Proof.KHost.lean ====
import proofs.«150488_j82076825026573_1_alg».proof.Proof.KernelIdealFrame
import proofs.«150488_j82076825026573_1_alg».proof.Proof.Gen.ReferenceIdeal.Read
import proofs.«150488_j82076825026573_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.KValue

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open Idealize.ShloMosaic.StableHlo
open scoped BigOperators

/-
  The buffers between the regions. The program's host operations never write an argument array, and the two index
  vectors (the edges' sources and targets, rows 0 and 1 of the edge array) are computed once, before the first region:
  read at any later boundary, each of these buffers still holds what it held first. This module walks each such buffer
  back, boundary by boundary, to the launch memory (for an argument) or to its defining operations (for the index
  vectors, the γ and β rows, and the reciprocal-count column).
-/

variable (m : (ℓ : Loc nD τ sig) → Buf (Elt Ideal) ℓ) (ρ : Dev nD → PrngReg)

/-- The launch memory's argument arrays, by their literal types. -/
abbrev mX (c : Dev nD) : (⟨S10000x128, .f32⟩ : BufTy).Contents (Elt Ideal) := m ((c : Thread nD τ).loc main_arg0)
abbrev mE (c : Dev nD) : (⟨S2x640000, .i32⟩ : BufTy).Contents (Elt Ideal) := m ((c : Thread nD τ).loc main_arg1)
abbrev mG (c : Dev nD) : (⟨S128, .f32⟩ : BufTy).Contents (Elt Ideal) := m ((c : Thread nD τ).loc main_arg2)
abbrev mB (c : Dev nD) : (⟨S128, .f32⟩ : BufTy).Contents (Elt Ideal) := m ((c : Thread nD τ).loc main_arg3)
abbrev mWl1 (c : Dev nD) : (⟨S256x128, .f32⟩ : BufTy).Contents (Elt Ideal) := m ((c : Thread nD τ).loc main_arg4)
abbrev mbl1 (c : Dev nD) : (⟨S256, .f32⟩ : BufTy).Contents (Elt Ideal) := m ((c : Thread nD τ).loc main_arg5)
abbrev mWr1 (c : Dev nD) : (⟨S256x128, .f32⟩ : BufTy).Contents (Elt Ideal) := m ((c : Thread nD τ).loc main_arg6)
abbrev mWl2 (c : Dev nD) : (⟨S256x256, .f32⟩ : BufTy).Contents (Elt Ideal) := m ((c : Thread nD τ).loc main_arg7)
abbrev mbl2 (c : Dev nD) : (⟨S256, .f32⟩ : BufTy).Contents (Elt Ideal) := m ((c : Thread nD τ).loc main_arg8)
abbrev mWr2 (c : Dev nD) : (⟨S256x256, .f32⟩ : BufTy).Contents (Elt Ideal) := m ((c : Thread nD τ).loc main_arg9)
abbrev mWs (c : Dev nD) : (⟨S256x128, .f32⟩ : BufTy).Contents (Elt Ideal) := m ((c : Thread nD τ).loc main_arg10)
abbrev mbs (c : Dev nD) : (⟨S256, .f32⟩ : BufTy).Contents (Elt Ideal) := m ((c : Thread nD τ).loc main_arg11)

/-! ## Before the first region -/

/-- The edges' sources: row 0 of the edge array, as a vector. -/
theorem w1_v1 (c : Dev nD) : W1 m ρ c (Proc.devRef .tc main_v1) = Cert.ReferenceIdeal.Read.val_main_v1 (F := Ideal) (mE m c) := by
  dsimp only [W1, hostOps0]; after_results; rfl
/-- The edges' targets: row 1 of the edge array, as a vector. -/
theorem w1_v3 (c : Dev nD) : W1 m ρ c (Proc.devRef .tc main_v3) = Cert.ReferenceIdeal.Read.val_main_v3 (F := Ideal) (mE m c) := by
  dsimp only [W1, hostOps0]; after_results; rfl
/-- γ as a [1, 128] row. -/
theorem w1_v4 (c : Dev nD) : W1 m ρ c (Proc.devRef .tc main_v4) = shapeCast S1x128 (mG m c) shapeCasts_S128_S1x128 := by
  dsimp only [W1, hostOps0]; after_results; rfl
/-- β as a [1, 128] row. -/
theorem w1_v5 (c : Dev nD) : W1 m ρ c (Proc.devRef .tc main_v5) = shapeCast S1x128 (mB m c) shapeCasts_S128_S1x128 := by
  dsimp only [W1, hostOps0]; after_results; rfl
theorem w1_arg0 (c : Dev nD) : W1 m ρ c (Proc.devRef .tc main_arg0) = m ((c : Thread nD τ).loc main_arg0) := by
  dsimp only [W1, hostOps0]; after_results
theorem w1_arg4 (c : Dev nD) : W1 m ρ c (Proc.devRef .tc main_arg4) = m ((c : Thread nD τ).loc main_arg4) := by
  dsimp only [W1, hostOps0]; after_results
theorem w1_arg5 (c : Dev nD) : W1 m ρ c (Proc.devRef .tc main_arg5) = m ((c : Thread nD τ).loc main_arg5) := by
  dsimp only [W1, hostOps0]; after_results
theorem w1_arg6 (c : Dev nD) : W1 m ρ c (Proc.devRef .tc main_arg6) = m ((c : Thread nD τ).loc main_arg6) := by
  dsimp only [W1, hostOps0]; after_results
theorem w1_arg7 (c : Dev nD) : W1 m ρ c (Proc.devRef .tc main_arg7) = m ((c : Thread nD τ).loc main_arg7) := by
  dsimp only [W1, hostOps0]; after_results
theorem w1_arg8 (c : Dev nD) : W1 m ρ c (Proc.devRef .tc main_arg8) = m ((c : Thread nD τ).loc main_arg8) := by
  dsimp only [W1, hostOps0]; after_results
theorem w1_arg9 (c : Dev nD) : W1 m ρ c (Proc.devRef .tc main_arg9) = m ((c : Thread nD τ).loc main_arg9) := by
  dsimp only [W1, hostOps0]; after_results
theorem w1_arg10 (c : Dev nD) : W1 m ρ c (Proc.devRef .tc main_arg10) = m ((c : Thread nD τ).loc main_arg10) := by
  dsimp only [W1, hostOps0]; after_results
theorem w1_arg11 (c : Dev nD) : W1 m ρ c (Proc.devRef .tc main_arg11) = m ((c : Thread nD τ).loc main_arg11) := by
  dsimp only [W1, hostOps0]; after_results

/-! ## After the first region -/

theorem w2_v1 (c : Dev nD) : W2 m ρ c (Proc.devRef .tc main_v1) = Cert.ReferenceIdeal.Read.val_main_v1 (F := Ideal) (mE m c) :=
  (W2_of_ne m ρ c main_v1 (by decide)).trans (w1_v1 m ρ c)
theorem w2_v3 (c : Dev nD) : W2 m ρ c (Proc.devRef .tc main_v3) = Cert.ReferenceIdeal.Read.val_main_v3 (F := Ideal) (mE m c) :=
  (W2_of_ne m ρ c main_v3 (by decide)).trans (w1_v3 m ρ c)
/-- x is the first region's first input window: its array is left as entered. -/
theorem w2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (w1_arg0 m ρ c)
theorem w2_arg4 (c : Dev nD) : W2 m ρ c (Proc.devRef .tc main_arg4) = m ((c : Thread nD τ).loc main_arg4) :=
  (W2_of_ne m ρ c main_arg4 (by decide)).trans (w1_arg4 m ρ c)
theorem w2_arg5 (c : Dev nD) : W2 m ρ c (Proc.devRef .tc main_arg5) = m ((c : Thread nD τ).loc main_arg5) :=
  (W2_of_ne m ρ c main_arg5 (by decide)).trans (w1_arg5 m ρ c)
theorem w2_arg6 (c : Dev nD) : W2 m ρ c (Proc.devRef .tc main_arg6) = m ((c : Thread nD τ).loc main_arg6) :=
  (W2_of_ne m ρ c main_arg6 (by decide)).trans (w1_arg6 m ρ c)
theorem w2_arg7 (c : Dev nD) : W2 m ρ c (Proc.devRef .tc main_arg7) = m ((c : Thread nD τ).loc main_arg7) :=
  (W2_of_ne m ρ c main_arg7 (by decide)).trans (w1_arg7 m ρ c)
theorem w2_arg8 (c : Dev nD) : W2 m ρ c (Proc.devRef .tc main_arg8) = m ((c : Thread nD τ).loc main_arg8) :=
  (W2_of_ne m ρ c main_arg8 (by decide)).trans (w1_arg8 m ρ c)
theorem w2_arg9 (c : Dev nD) : W2 m ρ c (Proc.devRef .tc main_arg9) = m ((c : Thread nD τ).loc main_arg9) :=
  (W2_of_ne m ρ c main_arg9 (by decide)).trans (w1_arg9 m ρ c)
theorem w2_arg10 (c : Dev nD) : W2 m ρ c (Proc.devRef .tc main_arg10) = m ((c : Thread nD τ).loc main_arg10) :=
  (W2_of_ne m ρ c main_arg10 (by decide)).trans (w1_arg10 m ρ c)
theorem w2_arg11 (c : Dev nD) : W2 m ρ c (Proc.devRef .tc main_arg11) = m ((c : Thread nD τ).loc main_arg11) :=
  (W2_of_ne m ρ c main_arg11 (by decide)).trans (w1_arg11 m ρ c)

/-! ## Before the second region -/

set_option maxHeartbeats 2000000 in
theorem w3_v1 (c : Dev nD) : W3 m ρ c (Proc.devRef .tc main_v1) = Cert.ReferenceIdeal.Read.val_main_v1 (F := Ideal) (mE m c) := by
  dsimp only [W3, hostOps1]; after_results; exact w2_v1 m ρ c
set_option maxHeartbeats 2000000 in
theorem w3_v3 (c : Dev nD) : W3 m ρ c (Proc.devRef .tc main_v3) = Cert.ReferenceIdeal.Read.val_main_v3 (F := Ideal) (mE m c) := by
  dsimp only [W3, hostOps1]; after_results; exact w2_v3 m ρ c
set_option maxHeartbeats 2000000 in
theorem w3_arg0 (c : Dev nD) : W3 m ρ c (Proc.devRef .tc main_arg0) = m ((c : Thread nD τ).loc main_arg0) := by
  dsimp only [W3, hostOps1]; after_results; exact w2_arg0 m ρ c
set_option maxHeartbeats 2000000 in
theorem w3_arg7 (c : Dev nD) : W3 m ρ c (Proc.devRef .tc main_arg7) = m ((c : Thread nD τ).loc main_arg7) := by
  dsimp only [W3, hostOps1]; after_results; exact w2_arg7 m ρ c
set_option maxHeartbeats 2000000 in
theorem w3_arg8 (c : Dev nD) : W3 m ρ c (Proc.devRef .tc main_arg8) = m ((c : Thread nD τ).loc main_arg8) := by
  dsimp only [W3, hostOps1]; after_results; exact w2_arg8 m ρ c
set_option maxHeartbeats 2000000 in
theorem w3_arg9 (c : Dev nD) : W3 m ρ c (Proc.devRef .tc main_arg9) = m ((c : Thread nD τ).loc main_arg9) := by
  dsimp only [W3, hostOps1]; after_results; exact w2_arg9 m ρ c
set_option maxHeartbeats 2000000 in
theorem w3_arg10 (c : Dev nD) : W3 m ρ c (Proc.devRef .tc main_arg10) = m ((c : Thread nD τ).loc main_arg10) := by
  dsimp only [W3, hostOps1]; after_results; exact w2_arg10 m ρ c
set_option maxHeartbeats 2000000 in
theorem w3_arg11 (c : Dev nD) : W3 m ρ c (Proc.devRef .tc main_arg11) = m ((c : Thread nD τ).loc main_arg11) := by
  dsimp only [W3, hostOps1]; after_results; exact w2_arg11 m ρ c

/-! ## After the second region -/

theorem w4_v1 (c : Dev nD) : W4 m ρ c (Proc.devRef .tc main_v1) = Cert.ReferenceIdeal.Read.val_main_v1 (F := Ideal) (mE m c) :=
  (W4_of_ne m ρ c main_v1 (by decide)).trans (w3_v1 m ρ c)
theorem w4_v3 (c : Dev nD) : W4 m ρ c (Proc.devRef .tc main_v3) = Cert.ReferenceIdeal.Read.val_main_v3 (F := Ideal) (mE m c) :=
  (W4_of_ne m ρ c main_v3 (by decide)).trans (w3_v3 m ρ c)
theorem w4_arg0 (c : Dev nD) : W4 m ρ c (Proc.devRef .tc main_arg0) = m ((c : Thread nD τ).loc main_arg0) :=
  (W4_of_ne m ρ c main_arg0 (by decide)).trans (w3_arg0 m ρ c)
theorem w4_arg7 (c : Dev nD) : W4 m ρ c (Proc.devRef .tc main_arg7) = m ((c : Thread nD τ).loc main_arg7) :=
  (W4_of_ne m ρ c main_arg7 (by decide)).trans (w3_arg7 m ρ c)
theorem w4_arg8 (c : Dev nD) : W4 m ρ c (Proc.devRef .tc main_arg8) = m ((c : Thread nD τ).loc main_arg8) :=
  (W4_of_ne m ρ c main_arg8 (by decide)).trans (w3_arg8 m ρ c)
theorem w4_arg9 (c : Dev nD) : W4 m ρ c (Proc.devRef .tc main_arg9) = m ((c : Thread nD τ).loc main_arg9) :=
  (W4_of_ne m ρ c main_arg9 (by decide)).trans (w3_arg9 m ρ c)
theorem w4_arg10 (c : Dev nD) : W4 m ρ c (Proc.devRef .tc main_arg10) = m ((c : Thread nD τ).loc main_arg10) :=
  (W4_of_ne m ρ c main_arg10 (by decide)).trans (w3_arg10 m ρ c)
theorem w4_arg11 (c : Dev nD) : W4 m ρ c (Proc.devRef .tc main_arg11) = m ((c : Thread nD τ).loc main_arg11) :=
  (W4_of_ne m ρ c main_arg11 (by decide)).trans (w3_arg11 m ρ c)

end Cert.KernelIdeal.KValue

end
-- ==== Proof.KReg0.lean ====
import proofs.«150488_j82076825026573_1_alg».proof.Proof.KernelIdealFrame
import proofs.«150488_j82076825026573_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue.Reg0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- Region 0's arrays as it finds them, by their literal types. -/
abbrev a0_x (c : Dev nD) : Vec Ideal S10000x128 .f32 := V c main_arg0
abbrev a0_g (c : Dev nD) : Vec Ideal S1x128 .f32 := V c main_v4
abbrev a0_b (c : Dev nD) : Vec Ideal S1x128 .f32 := V c main_v5

/-! ## The body's arithmetic at one entry -/

/-- The offsets `[0, 0]` are the zero offsets. -/
theorem zero_offsets : (![0, 0] : Fin 2 → Nat) = fun _ => 0 := funext fun a => by fin_cases a <;> rfl

/-- The index a sum over the rows inserts at column `q`: entry `(k, q)`. -/
theorem lift_col (h : S10000x128.Reduces [0] S128) (q : Fin 128) (k : Fin 10000) :
    h.lift (ix1 q) k = ix2 k q := by
  funext a
  match a with
  | ⟨0, _⟩ => rfl
  | ⟨1, _⟩ => rfl

/-- A sum over the rows, kept as a one-row array, holds at column `q` the sum of column `q`. -/
theorem colsum_apply (v : FVec Ideal S10000x128 .f32) (h : S10000x128.Reduces [0] S128) (hφ : FKind.Formats .f32)
    (hacc : (0x00000000#32 : BitVec 32) = 0x00000000#32) (hc : S128.ShapeCasts S1x128) (u : Fin 1) (q : Fin 128) :
    shapeCast S1x128 (multiReduction .add [0] S128 v 0x00000000#32 h hφ hacc) hc (ix2 u q) = ∑ r : Fin 10000, v (ix2 r q) := by
  refine (shapeCast_a_1a_apply _ hc u q).trans ?_
  refine (Ideal.multiReduction_add_single v 0x00000000#32 h hφ hacc (ix1 q)).trans ?_
  exact Finset.sum_congr rfl fun k _ => congrArg v (lift_col h q k)

/-- A reciprocal square root at an index is the reciprocal square root of the element. -/
theorem rsqrt_apply {s : Shape} {φ : FTy} (a : FVec Ideal s φ) (i : s.Idx) : rsqrt a i = Ideal.rsqrt (a i) := rfl

/-- The body's result at entry `(p, q)` is the batch normalisation of its three loaded blocks there. -/
theorem pay_apply (x : Vec Ideal S10000x128 .f32) (g b : Vec Ideal S1x128 .f32) (p : Fin 10000) (q : Fin 128) :
    k0_pay1 (F := Ideal) x g b (ix2 p q) = Spec.bn x (fun j => g (ix2 0 j)) (fun j => b (ix2 0 j)) (ix2 p q) := by
  unfold k0_pay1
  show _ = (x (ix2 p q) - Spec.colMean x q) * Ideal.rsqrt (Spec.colVar x q + Ideal.ofBits .f32 0x3727C5AC#32) * g (ix2 0 q) + b (ix2 0 q)
  unfold Spec.colVar Spec.colMean
  simp only [addf_apply, mulf_apply, subf_apply, divf_apply, rsqrt_apply, broadcast_apply, broadcastTo_1b_ab_apply,
    shapeCast_self, Ideal.ofBits_def]
  rw [colsum_apply, colsum_apply]
  simp only [mulf_apply, subf_apply, divf_apply, broadcast_apply, broadcastTo_1b_ab_apply]
  rw [colsum_apply]

/-- So the body's result is the batch normalisation of its loaded blocks, as one function of the index. -/
theorem pay_eq (x : Vec Ideal S10000x128 .f32) (g b : Vec Ideal S1x128 .f32) :
    k0_pay1 (F := Ideal) x g b = Spec.bn x (fun j => g (ix2 0 j)) (fun j => b (ix2 0 j)) := by
  funext i
  obtain ⟨p, q, rfl⟩ : ∃ (p : Fin 10000) (q : Fin 128), i = ix2 p q := ⟨i 0, i 1, eq_ix2 i⟩
  exact pay_apply x g b p q

/-! ## From the blocks to the array -/

/-- The printed index maps over the grid's one point: every window's block index is zero on both axes. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Window 0's block is the whole array `x`: its entry `y` is the array's entry `y`. -/
theorem read_x (c : Dev nD) (t : Fin cfg0.N) (y : S10000x128.Idx) : iblk0 V c 0 t y = a0_x V c y := by
  obtain ⟨e0, e1, -⟩ := idx_facts t
  show V c main_arg0 (((cfg0.win 0).blk t).view.emb y) = V c main_arg0 y
  refine congrArg (V c main_arg0) (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- Window 1's block is the whole one-row array of scales. -/
theorem read_g (c : Dev nD) (t : Fin cfg0.N) (y : S1x128.Idx) : iblk0 V c 1 t y = a0_g V c y := by
  obtain ⟨-, -, e0, e1, -⟩ := idx_facts t
  show V c main_v4 (((cfg0.win 1).blk t).view.emb y) = V c main_v4 y
  refine congrArg (V c main_v4) (funext fun a => Fin.ext ?_)
  match a with
  | ⟨0, _⟩ => show win0_1.index t (0 : Fin 2) * 1 + 1 * (y 0).val = (y 0).val; omega
  | ⟨1, _⟩ => show win0_1.index t (1 : Fin 2) * 128 + 1 * (y 1).val = (y 1).val; omega

/-- Window 2's block is the whole one-row array of shifts. -/
theorem read_b (c : Dev nD) (t : Fin cfg0.N) (y : S1x128.Idx) : iblk0 V c 2 t y = a0_b V c y := by
  obtain ⟨-, -, -, -, e0, e1, -⟩ := idx_facts t
  show V c main_v5 (((cfg0.win 2).blk t).view.emb y) = V c main_v5 y
  refine congrArg (V c main_v5) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem blk_x (c : Dev nD) (t : Fin cfg0.N) : iblk0 V c 0 t = a0_x V c := funext fun y => read_x V c t y
theorem blk_g (c : Dev nD) (t : Fin cfg0.N) : iblk0 V c 1 t = a0_g V c := funext fun y => read_g V c t y
theorem blk_b (c : Dev nD) (t : Fin cfg0.N) : iblk0 V c 2 t = a0_b V c := funext fun y => read_b V c t y

/-- What the one point writes back is the output window's block of the batch normalisation of the arrays found. -/
theorem flushed_eq (c : Dev nD) (t : Fin cfg0.N) :
    (dat0 (F := Ideal) V c).flushed 3 t = ((cfg0.win 3).blk t).view.read (Elt Ideal)
      (Spec.bn (a0_x V c) (fun j => a0_g V c (ix2 0 j)) (fun j => a0_b V c (ix2 0 j))) := by
  show (cfg0.win 3).cut (grid0.coords t) ((dat0 V c).after 3 t) = _
  rw [after0_3]
  unfold out0_3
  rw [View.canon_unit_zero zero_offsets]
  simp only [View.ld_unit_zero (S := S10000x128) zero_offsets, View.ld_unit_zero (S := S1x128) zero_offsets]
  rw [blk_x, blk_g, blk_b, pay_eq]
  obtain ⟨-, -, -, -, -, -, e0, e1⟩ := idx_facts t
  funext y
  show Spec.bn (a0_x V c) (fun j => a0_g V c (ix2 0 j)) (fun j => a0_b V c (ix2 0 j)) y
    = Spec.bn (a0_x V c) (fun j => a0_g V c (ix2 0 j)) (fun j => a0_b V c (ix2 0 j)) (((cfg0.win 3).blk t).view.emb y)
  refine congrArg _ (funext fun a => Fin.ext ?_)
  match a with
  | ⟨0, _⟩ => show (y 0).val = win0_3.index t (0 : Fin 2) * 10000 + 1 * (y 0).val; omega
  | ⟨1, _⟩ => show (y 1).val = win0_3.index t (1 : Fin 2) * 128 + 1 * (y 1).val; omega

/-- An index of the array is in point `t`'s block iff each coordinate is in the block's range on its axis. -/
theorem mem_blk (t : Fin cfg0.N) (i : S10000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v6).slice (win0_3.rect t)).set ↔ _
  rw [View.set_slice_whole, Rect.mem_set_unit]
  exact Iff.rfl

/-- Every index of the array is in the block of the point that holds its row, `row / 10000`: the one point. -/
theorem cover (i : S10000x128.Idx) :
    ∃ t : Fin cfg0.N, (cfg0.win 3).flush t = true ∧ i ∈ ((cfg0.win 3).blk t).view.set := by
  have hi0 : (i 0).val < 10000 := idx2_lt0 i
  have hi1 : (i 1).val < 128 := idx2_lt1 i
  have ht : (i 0).val / 10000 < cfg0.N := by show _ < grid0.N; rw [N_0]; omega
  refine ⟨⟨(i 0).val / 10000, ht⟩, flush0_3 _, ?_⟩
  obtain ⟨-, -, -, -, -, -, e0, e1⟩ := idx_facts ⟨(i 0).val / 10000, ht⟩
  rw [mem_blk]
  intro a
  match a with
  | ⟨0, _⟩ =>
    show win0_3.index _ (0 : Fin 2) * 10000 ≤ (i 0).val ∧ (i 0).val < win0_3.index _ (0 : Fin 2) * 10000 + 10000
    omega
  | ⟨1, _⟩ =>
    show win0_3.index _ (1 : Fin 2) * 128 ≤ (i 1).val ∧ (i 1).val < win0_3.index _ (1 : Fin 2) * 128 + 128
    omega

/-- After region 0 its output array holds the batch normalisation of the arrays it found. -/
theorem arr0 (c : Dev nD) : (dat0 (F := Ideal) V c).arrAt 3 cfg0.N
    = Spec.bn (a0_x V c) (fun j => a0_g V c (ix2 0 j)) (fun j => a0_b V c (ix2 0 j)) := by
  exact (dat0 (F := Ideal) V c).arrAt_eq_of_cover 3 _ (fun t _ => flushed_eq V c t) cover

end Cert.KernelIdeal.KValue.Reg0

end
-- ==== Proof.KReg1.lean ====
import proofs.«150488_j82076825026573_1_alg».proof.Proof.KernelIdealFrame
import proofs.«150488_j82076825026573_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue.Reg1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- Region 1's arrays as it finds them, by their literal types. -/
abbrev a1_agg (c : Dev nD) : Vec Ideal S10000x128 .f32 := V c main_v27
abbrev a1_xn (c : Dev nD) : Vec Ideal S10000x128 .f32 := V c main_v6
abbrev a1_wl (c : Dev nD) : Vec Ideal S128x256 .f32 := V c main_v28
abbrev a1_bl (c : Dev nD) : Vec Ideal S1x256 .f32 := V c main_v29
abbrev a1_wr (c : Dev nD) : Vec Ideal S128x256 .f32 := V c main_v30

/-! ## A [2000,128] by [128,256] block product, read at an entry

The product contracts the left factor's axis 1 with the right factor's axis 0: entry (p, q) of the product reads row p
of the left factor and column q of the right one. -/

/-- The left factor's row is the product's row. -/
theorem lhs_prod_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- The left factor's column is the contracted position. -/
theorem lhs_prod_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- The right factor's row is the contracted position. -/
theorem rhs_prod_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- The right factor's column is the product's column. -/
theorem rhs_prod_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Into a zero accumulator, entry (p, q) of the block product is the 128-term sum of row p of the left factor against
    column q of the right factor. -/
theorem prod_apply {φ₁ φ₂ : FTy} (l : FVec Ideal S2000x128 φ₁) (r : FVec Ideal S128x256 φ₂) (p : Fin 2000) (q : Fin 256) :
    FloatOps.matmul dot_S2000x128_S128x256_S2000x256_1_0_0_1_n_n none l r (constant (F := Ideal) S2000x256 .f32 0x00000000#32) (ix2 p q)
      = ∑ k : Fin 128, l (ix2 p k) * r (ix2 k q) := by
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_prod_0 _ _
    | ⟨1, _⟩ => exact (lhs_prod_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_prod_0 _ _).trans hk
    | ⟨1, _⟩ => exact rhs_prod_1 _ _)
  rw [el, er]

/-! ## The body's arithmetic at an entry -/

/-- Entry (p, q) of what the body stores: the two 128-term products of the row blocks against the weights, the bias of
    column q between them, and the positive part. The casts to the same shape and the change of float format do nothing
    on the extended reals. -/
theorem pay_apply (x0 x1 : Vec Ideal S2000x128 .f32) (wl wr : Vec Ideal S128x256 .f32) (b : Vec Ideal S1x256 .f32)
    (p : Fin 2000) (q : Fin 256) :
    k1_pay1 (F := Ideal) x0 x1 wl wr b (ix2 p q)
      = max (((∑ k : Fin 128, x0 (ix2 p k) * wl (ix2 k q)) + b (ix2 0 q))
          + ∑ k : Fin 128, x1 (ix2 p k) * wr (ix2 k q)) (Ideal.ofBits .f32 0x00000000#32) := by
  unfold k1_pay1
  simp only [shapeCast_self]
  rw [maximumf_apply, addf_apply, addf_apply]
  simp only [matmul]
  rw [prod_apply, prod_apply]
  rw [broadcastTo_apply (b) broadcasts_S1x256_S2000x256 (ix2 p q) (ix2 0 q) (fun a => by
    match a with
    | ⟨0, _⟩ => rfl
    | ⟨1, _⟩ => rfl)]
  rfl

/-- From row blocks to rows: if the two row blocks hold rows r of the two [10000,128] arrays at their rows p, the body's
    entry (p, q) is the first combine's entry (r, q). -/
theorem lin1_of_blocks (x0 x1 : Vec Ideal S2000x128 .f32) (A X : Vec Ideal S10000x128 .f32) (wl wr : Vec Ideal S128x256 .f32)
    (b : Vec Ideal S1x256 .f32) (p : Fin 2000) (q : Fin 256) (r : Fin 10000)
    (h0 : ∀ k : Fin 128, x0 (ix2 p k) = A (ix2 r k)) (h1 : ∀ k : Fin 128, x1 (ix2 p k) = X (ix2 r k)) :
    k1_pay1 (F := Ideal) x0 x1 wl wr b (ix2 p q) = Spec.lin1 A X wl (fun j => b (ix2 0 j)) wr (ix2 r q) := by
  rw [pay_apply]
  show _ = max (((∑ k : Fin 128, A (ix2 r k) * wl (ix2 k q)) + b (ix2 0 q)) + ∑ k : Fin 128, X (ix2 r k) * wr (ix2 k q))
    (Ideal.ofBits .f32 0x00000000#32)
  simp only [h0, h1]

/-! ## The blocks of the five windows

The grid has five points. At point t the two [10000,128] arrays and the output are read in their row block t (rows
2000 t to 2000 t + 1999); the two weight arrays and the bias are read whole at every point. -/

theorem hz : (![0, 0] : Fin 2 → Nat) = fun _ => 0 := funext fun a => by fin_cases a <;> rfl

/-- The printed index maps, decided over the five points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the first array's block at point t is row 2000 t + p of the array. -/
theorem agg_blk (c : Dev nD) (t : Fin cfg1.N) (p : Fin 2000) (k : Fin 128) (r : Fin 10000) (hr : r.val = t.val * 2000 + p.val) :
    (iblk1 V c 0 t : Vec Ideal S2000x128 .f32) (ix2 p k) = a1_agg V c (ix2 r k) := by
  obtain ⟨e0, e1, -⟩ := idx_facts t
  show a1_agg V c (((cfg1.win 0).blk t).view.emb (ix2 p k)) = a1_agg V c (ix2 r k)
  refine congrArg (a1_agg V c) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Row p of the second array's block at point t is row 2000 t + p of the array. -/
theorem xn_blk (c : Dev nD) (t : Fin cfg1.N) (p : Fin 2000) (k : Fin 128) (r : Fin 10000) (hr : r.val = t.val * 2000 + p.val) :
    (iblk1 V c 1 t : Vec Ideal S2000x128 .f32) (ix2 p k) = a1_xn V c (ix2 r k) := by
  obtain ⟨-, -, e0, e1, -⟩ := idx_facts t
  show a1_xn V c (((cfg1.win 1).blk t).view.emb (ix2 p k)) = a1_xn V c (ix2 r k)
  refine congrArg (a1_xn V c) (funext fun a => Fin.ext ?_)
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

/-- The left weights' block is the whole array at every point. -/
theorem wl_blk (c : Dev nD) (t : Fin cfg1.N) : (iblk1 V c 2 t : Vec Ideal S128x256 .f32) = a1_wl V c := by
  obtain ⟨-, -, -, -, e0, e1, -⟩ := idx_facts t
  funext y
  show a1_wl V c (((cfg1.win 2).blk t).view.emb y) = a1_wl V c y
  refine congrArg (a1_wl V c) (funext fun a => Fin.ext ?_)
  match a with
  | ⟨0, _⟩ => show win1_2.index t (0 : Fin 2) * 128 + 1 * (y 0).val = (y 0).val; rw [e0]; omega
  | ⟨1, _⟩ => show win1_2.index t (1 : Fin 2) * 256 + 1 * (y 1).val = (y 1).val; rw [e1]; omega

/-- The bias row's block is the whole array at every point. -/
theorem bl_blk (c : Dev nD) (t : Fin cfg1.N) : (iblk1 V c 3 t : Vec Ideal S1x256 .f32) = a1_bl V c := by
  obtain ⟨-, -, -, -, -, -, e0, e1, -⟩ := idx_facts t
  funext y
  show a1_bl V c (((cfg1.win 3).blk t).view.emb y) = a1_bl V c y
  refine congrArg (a1_bl V c) (funext fun a => Fin.ext ?_)
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

/-- The right weights' block is the whole array at every point. -/
theorem wr_blk (c : Dev nD) (t : Fin cfg1.N) : (iblk1 V c 4 t : Vec Ideal S128x256 .f32) = a1_wr V c := by
  obtain ⟨-, -, -, -, -, -, -, -, e0, e1, -⟩ := idx_facts t
  funext y
  show a1_wr V c (((cfg1.win 4).blk t).view.emb y) = a1_wr V c y
  refine congrArg (a1_wr V c) (funext fun a => Fin.ext ?_)
  match a with
  | ⟨0, _⟩ => show win1_4.index t (0 : Fin 2) * 128 + 1 * (y 0).val = (y 0).val; rw [e0]; omega
  | ⟨1, _⟩ => show win1_4.index t (1 : Fin 2) * 256 + 1 * (y 1).val = (y 1).val; rw [e1]; omega

/-- Entry (p, q) of the output's block at point t sits at row 2000 t + p, column q of the output array. -/
theorem out_emb (t : Fin cfg1.N) (p : Fin 2000) (q : Fin 256) (r : Fin 10000) (hr : r.val = t.val * 2000 + p.val) :
    ((cfg1.win 5).blk t).view.emb (ix2 p q) = ix2 r q := by
  obtain ⟨-, -, -, -, -, -, -, -, -, -, e0, e1⟩ := idx_facts t
  funext a; apply Fin.ext
  match a with
  | ⟨0, _⟩ => show win1_5.index t (0 : Fin 2) * 2000 + 1 * p.val = r.val; rw [e0, hr]; omega
  | ⟨1, _⟩ => show win1_5.index t (1 : Fin 2) * 256 + 1 * q.val = q.val; rw [e1]; omega

/-! ## What a point writes back -/

/-- The body's entry j at point t is the first combine of the arrays at the place of the output array where entry j of
    the output's block sits. -/
theorem out_blk (c : Dev nD) (t : Fin cfg1.N) (j : S2000x256.Idx) :
    k1_pay1 (F := Ideal) (iblk1 V c 0 t) (iblk1 V c 1 t) (iblk1 V c 2 t) (iblk1 V c 4 t) (iblk1 V c 3 t) j
      = Spec.lin1 (a1_agg V c) (a1_xn V c) (a1_wl V c) (fun j => a1_bl V c (ix2 0 j)) (a1_wr V c) (((cfg1.win 5).blk t).view.emb j) := by
  obtain ⟨p, q, rfl⟩ : ∃ (p : Fin 2000) (q : Fin 256), j = ix2 p q := ⟨j 0, j 1, eq_ix2 j⟩
  have hN : t.val < 5 := Nat.lt_of_lt_of_eq t.isLt N_1
  rw [out_emb t p q ⟨t.val * 2000 + p.val, by omega⟩ rfl, wl_blk V c t, wr_blk V c t, bl_blk V c t]
  exact lin1_of_blocks (iblk1 V c 0 t) (iblk1 V c 1 t) (a1_agg V c) (a1_xn V c) (a1_wl V c) (a1_wr V c) (a1_bl V c) p q
    ⟨t.val * 2000 + p.val, by omega⟩ (fun k => agg_blk V c t p k _ rfl) (fun k => xn_blk V c t p k _ rfl)

/-- What point t writes back is its block of the first combine of the arrays the region found. -/
theorem flushed_eq (c : Dev nD) (t : Fin cfg1.N) :
    (dat1 (F := Ideal) V c).flushed 5 t = ((cfg1.win 5).blk t).view.read (Elt Ideal) (Spec.lin1 (a1_agg V c) (a1_xn V c) (a1_wl V c) (fun j => a1_bl V c (ix2 0 j)) (a1_wr V c)) := by
  show (cfg1.win 5).cut (grid1.coords t) ((dat1 (F := Ideal) V c).after 5 t) = _
  rw [after1_5]
  unfold out1_5
  rw [View.canon_unit_zero hz]
  simp only [View.ld_unit_zero (S := S2000x128) hz, View.ld_unit_zero (S := S128x256) hz, View.ld_unit_zero (S := S1x256) hz]
  funext j
  exact out_blk V c t j

/-! ## The five row blocks fill the output array -/

/-- An index of the output array is in point t's block iff each coordinate is in the block's range on its axis. -/
theorem mem_blk (t : Fin cfg1.N) (i : S10000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v31).slice (win1_5.rect t)).set ↔ _
  rw [View.set_slice_whole, Rect.mem_set_unit]
  exact Iff.rfl

/-- Row r of the output array lies in the block of point r / 2000, and every point writes its block back. -/
theorem cover (i : S10000x256.Idx) :
    ∃ t : Fin cfg1.N, (cfg1.win 5).flush t = true ∧ i ∈ ((cfg1.win 5).blk t).view.set := by
  have hi0 : (i 0).val < 10000 := (i 0).isLt
  have hi1 : (i 1).val < 256 := (i 1).isLt
  have hN : cfg1.N = 5 := N_1
  have ht : (i 0).val / 2000 < cfg1.N := by rw [hN]; omega
  obtain ⟨-, -, -, -, -, -, -, -, -, -, e0, e1⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, ht⟩ (1 : Fin 2) * 256 ≤ (i 1).val
      ∧ (i 1).val < win1_5.index ⟨(i 0).val / 2000, ht⟩ (1 : Fin 2) * 256 + 256
    rw [e1]
    omega

/-- After region 1 its output array holds the first combine of the arrays it found. -/
theorem arr1 (c : Dev nD) : (dat1 (F := Ideal) V c).arrAt 5 cfg1.N
    = Spec.lin1 (a1_agg V c) (a1_xn V c) (a1_wl V c) (fun j => a1_bl V c (ix2 0 j)) (a1_wr V c) := by
  exact (dat1 (F := Ideal) V c).arrAt_eq_of_cover 5
    (Spec.lin1 (a1_agg V c) (a1_xn V c) (a1_wl V c) (fun j => a1_bl V c (ix2 0 j)) (a1_wr V c))
    (fun t _ => flushed_eq V c t) cover

end Cert.KernelIdeal.KValue.Reg1

end
-- ==== Proof.RefStages.lean ====
import proofs.«150488_j82076825026573_1_alg».proof.Proof.Gen.ReferenceIdeal.Read
import proofs.«150488_j82076825026573_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open scoped BigOperators

/-- The reference's per-column mean stage at column j is the column's sum over the 10000 rows divided by 10000.0:
    the float sum starts from the zero word, which adds nothing. -/
theorem mean_stage (x0 : (⟨S10000x128, .f32⟩ : BufTy).Contents (Elt Ideal)) (j : Fin 128) :
    val_main_v6 (F := Ideal) x0 (ix1 j) = Spec.colMean x0 j := by
  rw [val_main_v6_apply, val_main_v4_apply, val_main_v5_apply, val_main_cst_0_apply, val_main_cst_apply]
  have e : ∀ k : Fin 10000, idx_main_v4 (ix1 j) k = ix2 k j := fun k =>
    funext fun a => Fin.ext (by match a with | ⟨0, _⟩ => rfl | ⟨1, _⟩ => rfl)
  simp only [e, Spec.colMean, Ideal.hostDivf_def, Ideal.ofBits_def, Ideal.ofBits_zero_f32, zero_add]

/-- The centred entry (r, j): x[r, j] minus column j's mean (the mean is broadcast along the rows). -/
theorem centred_stage (x0 : (⟨S10000x128, .f32⟩ : BufTy).Contents (Elt Ideal)) (r : Fin 10000) (j : Fin 128) :
    val_main_v9 (F := Ideal) x0 (ix2 r j) = x0 (ix2 r j) - Spec.colMean x0 j := by
  rw [val_main_v9_apply, val_main_v8_apply, val_main_v7_apply]
  have e : idx_main_v7 (idx_main_v8 (ix2 r j)) = ix1 j :=
    funext fun a => Fin.ext (by match a with | ⟨0, _⟩ => rfl)
  rw [e, mean_stage]
  rfl

/-- The per-column variance stage at column j is the sum over the rows of the squared centred entries divided by
    10000.0 (the biased variance). -/
theorem var_stage (x0 : (⟨S10000x128, .f32⟩ : BufTy).Contents (Elt Ideal)) (j : Fin 128) :
    val_main_v13 (F := Ideal) x0 (ix1 j) = Spec.colVar x0 j := by
  rw [val_main_v13_apply, val_main_v11_apply, val_main_v12_apply, val_main_cst_2_apply, val_main_cst_1_apply]
  have e : ∀ k : Fin 10000, idx_main_v11 (ix1 j) k = ix2 k j := fun k =>
    funext fun a => Fin.ext (by match a with | ⟨0, _⟩ => rfl | ⟨1, _⟩ => rfl)
  simp only [e, val_main_v10_apply, centred_stage, Spec.colVar, Ideal.hostDivf_def, Ideal.mulf_def, Ideal.ofBits_def,
    Ideal.ofBits_zero_f32, zero_add]

/-- The reciprocal standard deviation of column j: rsqrt of the variance plus ε. -/
theorem rstd_stage (x0 : (⟨S10000x128, .f32⟩ : BufTy).Contents (Elt Ideal)) (j : Fin 128) :
    val_main_v19 (F := Ideal) x0 (ix1 j) = Ideal.rsqrt (Spec.colVar x0 j + Ideal.ofBits .f32 0x3727C5AC#32) := by
  rw [val_main_v19_apply, val_main_v18_apply, val_main_v17_apply, val_main_cst_3_apply, var_stage]
  rfl

/-- The reference's normalised features are the batch normalisation of x with scale γ and shift β. -/
theorem ref_bn (x0 : (⟨S10000x128, .f32⟩ : BufTy).Contents (Elt Ideal)) (x2 x3 : (⟨S128, .f32⟩ : BufTy).Contents (Elt Ideal)) :
    val_main_v28 (F := Ideal) x0 x2 x3 = Spec.bn x0 (fun j => x2 (ix1 j)) (fun j => x3 (ix1 j)) := by
  funext i
  obtain ⟨r, j, rfl⟩ : ∃ (r : Fin 10000) (j : Fin 128), i = ix2 r j := ⟨i 0, i 1, eq_ix2 i⟩
  rw [val_main_v28_apply, val_main_v25_apply, val_main_v22_apply, val_main_v16_apply, val_main_v15_apply,
    val_main_v14_apply, val_main_v21_apply, val_main_v20_apply, val_main_v24_apply, val_main_v23_apply,
    val_main_v27_apply, val_main_v26_apply]
  have em : idx_main_v14 (idx_main_v15 (ix2 r j)) = ix1 j :=
    funext fun a => Fin.ext (by match a with | ⟨0, _⟩ => rfl)
  have es : idx_main_v20 (idx_main_v21 (ix2 r j)) = ix1 j :=
    funext fun a => Fin.ext (by match a with | ⟨0, _⟩ => rfl)
  have eg : idx_main_v23 (idx_main_v24 (ix2 r j)) = ix1 j :=
    funext fun a => Fin.ext (by match a with | ⟨0, _⟩ => rfl)
  have eb : idx_main_v26 (idx_main_v27 (ix2 r j)) = ix1 j :=
    funext fun a => Fin.ext (by match a with | ⟨0, _⟩ => rfl)
  rw [em, es, eg, eb, mean_stage, rstd_stage]
  rfl

/-- The reference's first layer (after its ReLU) is the first combine of ITS aggregate, its normalised features and the
    transposed weights. -/
theorem ref_lin1 (x0 : (⟨S10000x128, .f32⟩ : BufTy).Contents (Elt Ideal)) (x1 : (⟨S2x640000, .i32⟩ : BufTy).Contents (Elt Ideal))
    (x2 x3 : (⟨S128, .f32⟩ : BufTy).Contents (Elt Ideal)) (x4 : (⟨S256x128, .f32⟩ : BufTy).Contents (Elt Ideal))
    (x5 : (⟨S256, .f32⟩ : BufTy).Contents (Elt Ideal)) (x6 : (⟨S256x128, .f32⟩ : BufTy).Contents (Elt Ideal)) :
    val_main_v56 (F := Ideal) x0 x1 x2 x3 x4 x5 x6
      = Spec.lin1 (val_main_v47 (F := Ideal) x0 x1 x2 x3) (val_main_v28 (F := Ideal) x0 x2 x3) (val_main_v48 (F := Ideal) x4)
          (fun j => x5 (ix1 j)) (val_main_v53 (F := Ideal) x6) := by
  funext i
  obtain ⟨p, q, rfl⟩ : ∃ (p : Fin 10000) (q : Fin 256), i = ix2 p q := ⟨i 0, i 1, eq_ix2 i⟩
  rw [val_main_v56_apply, val_main_v55_apply, val_main_v52_apply, val_main_v49_apply, val_main_v51_apply,
    val_main_v50_apply, val_main_v54_apply, val_main_call0_v0_apply, val_main_call0_cst_apply]
  generalize val_main_v47 (F := Ideal) x0 x1 x2 x3 = agg
  generalize val_main_v28 (F := Ideal) x0 x2 x3 = xn
  generalize val_main_v48 (F := Ideal) x4 = wl
  generalize val_main_v53 (F := Ideal) x6 = wr
  have el1 : ∀ k : Fin 128, lidx_main_v49 (ix2 p q) k = ix2 p k := fun k =>
    funext fun a => Fin.ext (by match a with | ⟨0, _⟩ => rfl | ⟨1, _⟩ => rfl)
  have er1 : ∀ k : Fin 128, ridx_main_v49 (ix2 p q) k = ix2 k q := fun k =>
    funext fun a => Fin.ext (by match a with | ⟨0, _⟩ => rfl | ⟨1, _⟩ => rfl)
  have el2 : ∀ k : Fin 128, lidx_main_v54 (ix2 p q) k = ix2 p k := fun k =>
    funext fun a => Fin.ext (by match a with | ⟨0, _⟩ => rfl | ⟨1, _⟩ => rfl)
  have er2 : ∀ k : Fin 128, ridx_main_v54 (ix2 p q) k = ix2 k q := fun k =>
    funext fun a => Fin.ext (by match a with | ⟨0, _⟩ => rfl | ⟨1, _⟩ => rfl)
  have eb : idx_main_v50 (idx_main_v51 (ix2 p q)) = ix1 q :=
    funext fun a => Fin.ext (by match a with | ⟨0, _⟩ => rfl)
  simp only [el1, er1, el2, er2, eb, Ideal.maximumf_def, Ideal.addf_def, Ideal.ofBits_def]
  rfl

/-- The reference's result is the second combine of ITS second aggregate, its first layer, x and the transposed weights. -/
theorem ref_lin2 (x0 : (⟨S10000x128, .f32⟩ : BufTy).Contents (Elt Ideal)) (x1 : (⟨S2x640000, .i32⟩ : BufTy).Contents (Elt Ideal))
    (x2 x3 : (⟨S128, .f32⟩ : BufTy).Contents (Elt Ideal)) (x4 : (⟨S256x128, .f32⟩ : BufTy).Contents (Elt Ideal))
    (x5 : (⟨S256, .f32⟩ : BufTy).Contents (Elt Ideal)) (x6 : (⟨S256x128, .f32⟩ : BufTy).Contents (Elt Ideal))
    (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256x128, .f32⟩ : BufTy).Contents (Elt Ideal))
    (x11 : (⟨S256, .f32⟩ : BufTy).Contents (Elt Ideal)) :
    val_main_v89 (F := Ideal) x0 x1 x2 x3 x4 x5 x6 x7 x8 x9 x10 x11
      = Spec.lin2 (val_main_v75 (F := Ideal) x0 x1 x2 x3 x4 x5 x6) (val_main_v56 (F := Ideal) x0 x1 x2 x3 x4 x5 x6) x0
          (val_main_v76 (F := Ideal) x7) (fun j => x8 (ix1 j)) (val_main_v81 (F := Ideal) x9) (val_main_v84 (F := Ideal) x10)
          (fun j => x11 (ix1 j)) := by
  funext i
  obtain ⟨p, q, rfl⟩ : ∃ (p : Fin 10000) (q : Fin 256), i = ix2 p q := ⟨i 0, i 1, eq_ix2 i⟩
  rw [val_main_v89_apply, val_main_v86_apply, val_main_v83_apply, val_main_v80_apply, val_main_v77_apply,
    val_main_v79_apply, val_main_v78_apply, val_main_v82_apply, val_main_v85_apply, val_main_v88_apply,
    val_main_v87_apply]
  generalize val_main_v75 (F := Ideal) x0 x1 x2 x3 x4 x5 x6 = agg
  generalize val_main_v56 (F := Ideal) x0 x1 x2 x3 x4 x5 x6 = h
  generalize val_main_v76 (F := Ideal) x7 = wl
  generalize val_main_v81 (F := Ideal) x9 = wr
  generalize val_main_v84 (F := Ideal) x10 = ws
  have el1 : ∀ k : Fin 256, lidx_main_v77 (ix2 p q) k = ix2 p k := fun k =>
    funext fun a => Fin.ext (by match a with | ⟨0, _⟩ => rfl | ⟨1, _⟩ => rfl)
  have er1 : ∀ k : Fin 256, ridx_main_v77 (ix2 p q) k = ix2 k q := fun k =>
    funext fun a => Fin.ext (by match a with | ⟨0, _⟩ => rfl | ⟨1, _⟩ => rfl)
  have el2 : ∀ k : Fin 256, lidx_main_v82 (ix2 p q) k = ix2 p k := fun k =>
    funext fun a => Fin.ext (by match a with | ⟨0, _⟩ => rfl | ⟨1, _⟩ => rfl)
  have er2 : ∀ k : Fin 256, ridx_main_v82 (ix2 p q) k = ix2 k q := fun k =>
    funext fun a => Fin.ext (by match a with | ⟨0, _⟩ => rfl | ⟨1, _⟩ => rfl)
  have el3 : ∀ k : Fin 128, lidx_main_v85 (ix2 p q) k = ix2 p k := fun k =>
    funext fun a => Fin.ext (by match a with | ⟨0, _⟩ => rfl | ⟨1, _⟩ => rfl)
  have er3 : ∀ k : Fin 128, ridx_main_v85 (ix2 p q) k = ix2 k q := fun k =>
    funext fun a => Fin.ext (by match a with | ⟨0, _⟩ => rfl | ⟨1, _⟩ => rfl)
  have eb1 : idx_main_v78 (idx_main_v79 (ix2 p q)) = ix1 q :=
    funext fun a => Fin.ext (by match a with | ⟨0, _⟩ => rfl)
  have eb2 : idx_main_v87 (idx_main_v88 (ix2 p q)) = ix1 q :=
    funext fun a => Fin.ext (by match a with | ⟨0, _⟩ => rfl)
  simp only [el1, er1, el2, er2, el3, er3, eb1, eb2, Ideal.addf_def]
  rfl

end Cert.ReferenceIdeal.RefValue

end
-- ==== Proof.AggLaw.lean ====
import proofs.«150488_j82076825026573_1_alg».proof.Proof.Spec
import Idealize.ShloMosaic.Lib.Pipeline.Value
import Idealize.ShloMosaic.Lib.ValueIdx
import Idealize.ShloMosaic.PureOps.Ideal.Laws

/-
  The mean aggregation, two spellings of one function. A segment's sum S[r, ·] is divided by the segment's count
  floored at one, c_r = max(n_r, 1). One program multiplies the row by the reciprocal column 1 / c_r, the other
  divides the row by c_r; the two agree entry by entry because c_r ≥ 1 is never zero, and off zero the quotient IS
  the product with the inverse — at infinite entries of S as well.
-/

noncomputable section

namespace Cert.AggLaw

open Idealize.ShloMosaic Idealize.ShloMosaic.ValueIdx
open scoped BigOperators

/-- A length-10000 vector laid out as a column and then spread along rows of width d, read at (r, j): the vector's
    entry r. -/
theorem column_spread_apply {d : Nat} (Y : FVec Ideal ⟨1, ![10000]⟩ .f32)
    (h1 : (⟨1, ![10000]⟩ : Shape).BroadcastsInDim ⟨2, ![10000, 1]⟩ ![0])
    (h2 : (⟨2, ![10000, 1]⟩ : Shape).BroadcastsInDim ⟨2, ![10000, d]⟩ ![0, 1])
    (r : Fin 10000) (q : Fin d) :
    broadcastInDim ⟨2, ![10000, d]⟩ ![0, 1] h2 (broadcastInDim ⟨2, ![10000, 1]⟩ ![0] h1 Y) (ix2 r q) = Y (ix1 r) := by
  refine (broadcastInDim_apply ![0, 1] h2 _ (ix2 r q) (ix2 r (0 : Fin 1)) (fun a => by
    match a with
    | ⟨0, _⟩ => show r.val = if (10000 : Nat) = 1 then 0 else r.val; rw [if_neg (by decide)]
    | ⟨1, _⟩ => show (0 : Nat) = if (1 : Nat) = 1 then 0 else q.val; rw [if_pos rfl])).trans ?_
  exact broadcastInDim_apply ![0] h1 Y (ix2 r (0 : Fin 1)) (ix1 r) (fun a => by
    match a with
    | ⟨0, _⟩ => show r.val = if (10000 : Nat) = 1 then 0 else r.val; rw [if_neg (by decide)])

/-- Rows times the reciprocal of the floored count are rows divided by the floored count. -/
theorem scale_rows {d : Nat} (S : FVec Ideal ⟨2, ![10000, d]⟩ .f32) (C o1 o2 : FVec Ideal ⟨1, ![10000]⟩ .f32)
    (ho1 : ∀ k, o1 k = Ideal.ofBits .f32 0x3F800000#32) (ho2 : ∀ k, o2 k = Ideal.ofBits .f32 0x3F800000#32)
    (h1 h1' : (⟨1, ![10000]⟩ : Shape).BroadcastsInDim ⟨2, ![10000, 1]⟩ ![0])
    (h2 h2' : (⟨2, ![10000, 1]⟩ : Shape).BroadcastsInDim ⟨2, ![10000, d]⟩ ![0, 1]) :
    mulf S (broadcastInDim ⟨2, ![10000, d]⟩ ![0, 1] h2 (broadcastInDim ⟨2, ![10000, 1]⟩ ![0] h1
        (Host.divf o1 (maximumf C o2))))
      = Host.divf S (broadcastInDim ⟨2, ![10000, d]⟩ ![0, 1] h2' (broadcastInDim ⟨2, ![10000, 1]⟩ ![0] h1'
        (maximumf C o2))) := by
  funext i
  obtain ⟨r, q, rfl⟩ : ∃ (r : Fin 10000) (q : Fin d), i = ix2 r q := ⟨i 0, i 1, eq_ix2 i⟩
  show S (ix2 r q) * _ = Ideal.div (S (ix2 r q)) _
  rw [column_spread_apply, column_spread_apply]
  show S (ix2 r q) * Ideal.div (o1 _) (max (C _) (o2 _)) = Ideal.div (S (ix2 r q)) (max (C _) (o2 _))
  rw [ho1, ho2]
  exact Spec.scale_law _ _ (Spec.max_one_ne_zero _)

end Cert.AggLaw

end
-- ==== Proof.KChain1.lean ====
import proofs.«150488_j82076825026573_1_alg».proof.Proof.KHost
import proofs.«150488_j82076825026573_1_alg».proof.Proof.KReg0
import proofs.«150488_j82076825026573_1_alg».proof.Proof.KReg1
import proofs.«150488_j82076825026573_1_alg».proof.Proof.RefStages
import proofs.«150488_j82076825026573_1_alg».proof.Proof.AggLaw
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Cert.KernelIdeal.GenP
open Cert.KernelIdeal.KValue.Reg0 Cert.KernelIdeal.KValue.Reg1
open Idealize.ShloMosaic Idealize.ShloMosaic.TcCoe Idealize.ShloMosaic.ValueIdx Idealize.SL.Sem
open Idealize.ShloMosaic.Pipeline (Dat Cfg Window)
open Idealize.ShloMosaic.StableHlo
open scoped BigOperators

/-
  The program's values up to the second region's exit, each named by the reference's own stage of the same arguments.
  After the first region the normalised features are the reference's (both are the batch normalisation of x). The first
  aggregate is the segment sum of gathered rows times the reciprocal of the floored counts where the reference divides
  by the floored counts: one function, since a floored count is never zero. After the second region the first layer is
  the reference's first layer: the same combine of equal aggregates, equal features and the same transposed weights.
-/

variable (m : (ℓ : Loc nD τ sig) → Buf (Elt Ideal) ℓ) (ρ : Dev nD → PrngReg)

/-- A length-n vector recast as a [1, n] row, read at (0, j): the vector's entry j. -/
theorem row_cast_apply {n : Nat} (v : (⟨1, ![n]⟩ : Shape).Idx → EReal) (h : (⟨1, ![n]⟩ : Shape).ShapeCasts ⟨2, ![1, n]⟩)
    (j : Fin n) : shapeCast ⟨2, ![1, n]⟩ v h (ix2 (0 : Fin 1) j) = v (ix1 j) := by
  refine (shapeCast_addUnit_apply ![n] v h (ix2 (0 : Fin 1) j)).trans (congrArg v ?_)
  funext a
  match a with
  | ⟨0, _⟩ => rfl

/-! ## After the first region -/

/-- The normalised features: the reference's. -/
theorem w2_v6 (c : Dev nD) : W2 m ρ c (Proc.devRef .tc main_v6)
    = Cert.ReferenceIdeal.Read.val_main_v28 (F := Ideal) (mX m c) (mG m c) (mB m c) := by
  refine (W2_arr m ρ c 3).trans ?_
  rw [arr0 (V1 m ρ) c, Cert.ReferenceIdeal.RefValue.ref_bn]
  have hx : a0_x (V1 m ρ) c = mX m c := w1_arg0 m ρ c
  have hg : (fun j => a0_g (V1 m ρ) c (ix2 0 j)) = fun j => mG m c (ix1 j) := funext fun j => by
    show W1 m ρ c (Proc.devRef .tc main_v4) (ix2 0 j) = _
    rw [w1_v4]; exact row_cast_apply _ _ j
  have hb : (fun j => a0_b (V1 m ρ) c (ix2 0 j)) = fun j => mB m c (ix1 j) := funext fun j => by
    show W1 m ρ c (Proc.devRef .tc main_v5) (ix2 0 j) = _
    rw [w1_v5]; exact row_cast_apply _ _ j
  rw [hx, hg, hb]

/-! ## Before the second region -/

/-- The reciprocal of the floored segment counts, as a column. -/
abbrev invCountCol (tgt : (⟨S640000, .i32⟩ : BufTy).Contents (Elt Ideal)) : (⟨S10000x1, .f32⟩ : BufTy).Contents (Elt Ideal) :=
  broadcastInDim S10000x1 ![0] bcast_S10000_S10000x1_0
    (Host.divf (F := Ideal) (broadcastInDim S10000 ![] bcast_S_S10000 (constant (F := Ideal) S_ .f32 0x3F800000#32))
      (maximumf (F := Ideal)
        (Host.scatterAdd (F := Ideal) scatter_S10000_S640000x1_S640000_n_0_0_1
          (broadcastInDim S10000 ![] bcast_S_S10000 (constant (F := Ideal) S_ .f32 0x00000000#32))
          (broadcastInDim S640000x1 ![0] bcast_S640000_S640000x1_0 tgt)
          (broadcastInDim S640000 ![] bcast_S_S640000 (constant (F := Ideal) S_ .f32 0x3F800000#32)))
        (broadcastInDim S10000 ![] bcast_S_S10000 (constant (F := Ideal) S_ .f32 0x3F800000#32))))

set_option maxHeartbeats 4000000 in
theorem w3_v15 (c : Dev nD) : W3 m ρ c (Proc.devRef .tc main_v15)
    = invCountCol (Cert.ReferenceIdeal.Read.val_main_v3 (F := Ideal) (mE m c)) := by
  dsimp only [W3, hostOps1]; after_results
  rw [w2_v3]

set_option maxHeartbeats 4000000 in
/-- The first aggregate: the reference's (rows times the reciprocal floored count are rows over the floored count). -/
theorem w3_v27 (c : Dev nD) : W3 m ρ c (Proc.devRef .tc main_v27)
    = Cert.ReferenceIdeal.Read.val_main_v47 (F := Ideal) (mX m c) (mE m c) (mG m c) (mB m c) := by
  dsimp only [W3, hostOps1]; after_results
  rw [w2_v1, w2_v3, w2_v6]
  refine (Cert.AggLaw.scale_rows _ _ _ _ (fun _ => rfl) (fun _ => rfl) bcast_S10000_S10000x1_0 bcast_S10000_S10000x1_0
    bcast_S10000x1_S10000x128_0_1 bcast_S10000x1_S10000x128_0_1).trans ?_
  rfl

set_option maxHeartbeats 2000000 in
theorem w3_v6 (c : Dev nD) : W3 m ρ c (Proc.devRef .tc main_v6)
    = Cert.ReferenceIdeal.Read.val_main_v28 (F := Ideal) (mX m c) (mG m c) (mB m c) := by
  dsimp only [W3, hostOps1]; after_results; exact w2_v6 m ρ c

set_option maxHeartbeats 2000000 in
theorem w3_v28 (c : Dev nD) : W3 m ρ c (Proc.devRef .tc main_v28) = Cert.ReferenceIdeal.Read.val_main_v48 (F := Ideal) (mWl1 m c) := by
  dsimp only [W3, hostOps1]; after_results; rw [w2_arg4]; rfl

set_option maxHeartbeats 2000000 in
theorem w3_v29 (c : Dev nD) : W3 m ρ c (Proc.devRef .tc main_v29) = shapeCast S1x256 (mbl1 m c) shapeCasts_S256_S1x256 := by
  dsimp only [W3, hostOps1]; after_results; rw [w2_arg5]; rfl

set_option maxHeartbeats 2000000 in
theorem w3_v30 (c : Dev nD) : W3 m ρ c (Proc.devRef .tc main_v30) = Cert.ReferenceIdeal.Read.val_main_v53 (F := Ideal) (mWr1 m c) := by
  dsimp only [W3, hostOps1]; after_results; rw [w2_arg6]; rfl

/-! ## After the second region -/

theorem w4_v15 (c : Dev nD) : W4 m ρ c (Proc.devRef .tc main_v15)
    = invCountCol (Cert.ReferenceIdeal.Read.val_main_v3 (F := Ideal) (mE m c)) :=
  (W4_of_ne m ρ c main_v15 (by decide)).trans (w3_v15 m ρ c)

/-- The first layer: the reference's. -/
theorem w4_v31 (c : Dev nD) : W4 m ρ c (Proc.devRef .tc main_v31)
    = Cert.ReferenceIdeal.Read.val_main_v56 (F := Ideal) (mX m c) (mE m c) (mG m c) (mB m c) (mWl1 m c) (mbl1 m c) (mWr1 m c) := by
  refine (W4_arr m ρ c 5).trans ?_
  rw [arr1 (V3 m ρ) c, Cert.ReferenceIdeal.RefValue.ref_lin1]
  have h0 : a1_agg (V3 m ρ) c = Cert.ReferenceIdeal.Read.val_main_v47 (F := Ideal) (mX m c) (mE m c) (mG m c) (mB m c) := w3_v27 m ρ c
  have h1 : a1_xn (V3 m ρ) c = Cert.ReferenceIdeal.Read.val_main_v28 (F := Ideal) (mX m c) (mG m c) (mB m c) := w3_v6 m ρ c
  have h2 : a1_wl (V3 m ρ) c = Cert.ReferenceIdeal.Read.val_main_v48 (F := Ideal) (mWl1 m c) := w3_v28 m ρ c
  have h3 : (fun j => a1_bl (V3 m ρ) c (ix2 0 j)) = fun j => mbl1 m c (ix1 j) := funext fun j => by
    show W3 m ρ c (Proc.devRef .tc main_v29) (ix2 0 j) = _
    rw [w3_v29]; exact row_cast_apply _ _ j
  have h4 : a1_wr (V3 m ρ) c = Cert.ReferenceIdeal.Read.val_main_v53 (F := Ideal) (mWr1 m c) := w3_v30 m ρ c
  rw [h0, h1, h2, h3, h4]

end Cert.KernelIdeal.KValue

end
-- ==== Proof.KReg2.lean ====
import proofs.«150488_j82076825026573_1_alg».proof.Proof.KernelIdealFrame
import proofs.«150488_j82076825026573_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue.Reg2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- Region 2's arrays as it finds them, by their literal types. -/
abbrev a2_agg (c : Dev nD) : Vec Ideal S10000x256 .f32 := V c main_v43
abbrev a2_h (c : Dev nD) : Vec Ideal S10000x256 .f32 := V c main_v31
abbrev a2_x (c : Dev nD) : Vec Ideal S10000x128 .f32 := V c main_arg0
abbrev a2_wl (c : Dev nD) : Vec Ideal S256x256 .f32 := V c main_v44
abbrev a2_bl (c : Dev nD) : Vec Ideal S1x256 .f32 := V c main_v45
abbrev a2_wr (c : Dev nD) : Vec Ideal S256x256 .f32 := V c main_v46
abbrev a2_ws (c : Dev nD) : Vec Ideal S128x256 .f32 := V c main_v47
abbrev a2_bs (c : Dev nD) : Vec Ideal S1x256 .f32 := V c main_v48

/-! ## The 256-term product: operand indices axis by axis -/

/-- The left operand's row is the output's row. -/
theorem wide_lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column is the summation index. -/
theorem wide_lhs_col (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row is the summation index. -/
theorem wide_rhs_row (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- The right operand's column is the output's column. -/
theorem wide_rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product into a zero accumulator, entry (p, q): the sum over k of l[p, k] · r[k, q], 256 terms. -/
theorem wide_apply (l : FVec Ideal S2000x256 .bf16) (r : FVec Ideal S256x256 .bf16) (p : Fin 2000) (q : Fin 256) :
    matmul (F := Ideal) dot_S2000x256_S256x256_S2000x256_1_0_0_1_n_n none l r (constant (F := Ideal) S2000x256 .f32 0x00000000#32) (ix2 p q)
      = ∑ k : Fin 256, l (ix2 p k) * r (ix2 k q) := by
  show FloatOps.matmul dot_S2000x256_S256x256_S2000x256_1_0_0_1_n_n none l r (constant (F := Ideal) S2000x256 .f32 0x00000000#32) (ix2 p q) = _
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact wide_lhs_row _ _
    | ⟨1, _⟩ => exact (wide_lhs_col _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (wide_rhs_row _ _).trans hk
    | ⟨1, _⟩ => exact wide_rhs_col _ _)
  rw [el, er]

/-! ## The 128-term (residual) product: operand indices axis by axis -/

/-- The left operand's row is the output's row. -/
theorem res_lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- The left operand's column is the summation index. -/
theorem res_lhs_col (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- The right operand's row is the summation index. -/
theorem res_rhs_row (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- The right operand's column is the output's column. -/
theorem res_rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The product into a zero accumulator, entry (p, q): the sum over k of l[p, k] · r[k, q], 128 terms. -/
theorem res_apply (l : FVec Ideal S2000x128 .bf16) (r : FVec Ideal S128x256 .bf16) (p : Fin 2000) (q : Fin 256) :
    matmul (F := Ideal) dot_S2000x128_S128x256_S2000x256_1_0_0_1_n_n none l r (constant (F := Ideal) S2000x256 .f32 0x00000000#32) (ix2 p q)
      = ∑ k : Fin 128, l (ix2 p k) * r (ix2 k q) := by
  show FloatOps.matmul dot_S2000x128_S128x256_S2000x256_1_0_0_1_n_n none l r (constant (F := Ideal) S2000x256 .f32 0x00000000#32) (ix2 p q) = _
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact res_lhs_row _ _
    | ⟨1, _⟩ => exact (res_lhs_col _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (res_rhs_row _ _).trans hk
    | ⟨1, _⟩ => exact res_rhs_col _ _)
  rw [el, er]

/-! ## The body's arithmetic at an entry -/

/-- Entry (p, q) of what the body stores, over any blocks: the two 256-term products, the 128-term residual product
    and the two bias rows, added in the order of the second combine. -/
theorem combine_at (agg h : Vec Ideal S2000x256 .f32) (x : Vec Ideal S2000x128 .f32)
    (wl wr : Vec Ideal S256x256 .f32) (ws : Vec Ideal S128x256 .f32) (bl bs : Vec Ideal S1x256 .f32)
    (p : Fin 2000) (q : Fin 256) :
    k2_pay1 (F := Ideal) agg h x wl wr ws bl bs (ix2 p q)
      = ((((∑ k : Fin 256, agg (ix2 p k) * wl (ix2 k q)) + bl (ix2 0 q))
          + ∑ k : Fin 256, h (ix2 p k) * wr (ix2 k q))
          + ∑ k : Fin 128, x (ix2 p k) * ws (ix2 k q)) + bs (ix2 0 q) := by
  unfold k2_pay1
  simp only [shapeCast_self]
  simp only [addf_apply, wide_apply, res_apply, broadcastTo_1b_ab_apply, truncf_apply]

/-- The same entry against the second combine of whole arrays: when row p of each row-blocked block is row i₀ of its
    array, and column q of each weight and bias block is column i₁ of its array, entry (p, q) of what the body stores
    is entry (i₀, i₁) of the combine. -/
theorem lin2_of_blocks
    (A H : S10000x256.Idx → EReal) (X : S10000x128.Idx → EReal) (WL WR : S256x256.Idx → EReal)
    (WS : S128x256.Idx → EReal) (BL BS : S1x256.Idx → EReal)
    (agg h : Vec Ideal S2000x256 .f32) (x : Vec Ideal S2000x128 .f32)
    (wl wr : Vec Ideal S256x256 .f32) (ws : Vec Ideal S128x256 .f32) (bl bs : Vec Ideal S1x256 .f32)
    (p : Fin 2000) (q : Fin 256) (i : S10000x256.Idx)
    (hagg : ∀ k : Fin 256, agg (ix2 p k) = A (ix2 (i 0) k))
    (hh : ∀ k : Fin 256, h (ix2 p k) = H (ix2 (i 0) k))
    (hx : ∀ k : Fin 128, x (ix2 p k) = X (ix2 (i 0) k))
    (hwl : ∀ k : Fin 256, wl (ix2 k q) = WL (ix2 k (i 1)))
    (hwr : ∀ k : Fin 256, wr (ix2 k q) = WR (ix2 k (i 1)))
    (hws : ∀ k : Fin 128, ws (ix2 k q) = WS (ix2 k (i 1)))
    (hbl : bl (ix2 0 q) = BL (ix2 0 (i 1)))
    (hbs : bs (ix2 0 q) = BS (ix2 0 (i 1))) :
    k2_pay1 (F := Ideal) agg h x wl wr ws bl bs (ix2 p q)
      = Spec.lin2 A H X WL (fun j => BL (ix2 0 j)) WR WS (fun j => BS (ix2 0 j)) i := by
  rw [combine_at]
  unfold Spec.lin2
  simp only [hagg, hh, hx, hwl, hwr, hws, hbl, hbs]

/-! ## From the blocks to the array -/

theorem hz : (![0, 0] : Fin 2 → Nat) = fun _ => 0 := funext fun a => by fin_cases a <;> rfl

/-- The printed index maps, decided over the five grid points: the three row-blocked inputs sit at the output's row
    block, which is the point's number; every weight and bias window sits at block (0, 0). -/
theorem idx_facts : ∀ t : Fin cfg2.N,
    win2_0.index t (0 : Fin 2) = win2_8.index t (0 : Fin 2) ∧ win2_0.index t (1 : Fin 2) = win2_8.index t (1 : Fin 2)
    ∧ win2_1.index t (0 : Fin 2) = win2_8.index t (0 : Fin 2) ∧ win2_1.index t (1 : Fin 2) = win2_8.index t (1 : Fin 2)
    ∧ win2_2.index t (0 : Fin 2) = win2_8.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- What point t writes back is block t of the second combine of the arrays the region found. -/
theorem flushed_eq (c : Dev nD) (t : Fin cfg2.N) :
    (dat2 (F := Ideal) V c).flushed 8 t = ((cfg2.win 8).blk t).view.read (Elt Ideal) (Spec.lin2 (a2_agg V c) (a2_h V c) (a2_x V c) (a2_wl V c) (fun j => a2_bl V c (ix2 0 j)) (a2_wr V c) (a2_ws V c) (fun j => a2_bs V c (ix2 0 j))) := by
  show (cfg2.win 8).cut (grid2.coords t) ((dat2 (F := Ideal) V c).after 8 t) = _
  rw [after2_8]
  unfold out2_8
  rw [View.canon_unit_zero hz]
  simp only [View.ld_unit_zero (S := S2000x256) hz, View.ld_unit_zero (S := S2000x128) hz, View.ld_unit_zero (S := S256x256) hz,
    View.ld_unit_zero (S := S128x256) hz, View.ld_unit_zero (S := S1x256) hz]
  obtain ⟨e0r, e0c, e1r, e1c, e2r, e2c, e3r, e3c, e4r, e4c, e5r, e5c, e6r, e6c, e7r, e7c, e8r, e8c⟩ := idx_facts t
  funext j
  obtain ⟨p, q, rfl⟩ : ∃ (p : Fin 2000) (q : Fin 256), j = ix2 p q := ⟨j 0, j 1, eq_ix2 j⟩
  show k2_pay1 (F := Ideal) (iblk2 V c 0 t) (iblk2 V c 1 t) (iblk2 V c 2 t) (iblk2 V c 3 t) (iblk2 V c 5 t) (iblk2 V c 6 t) (iblk2 V c 4 t) (iblk2 V c 7 t) (ix2 p q)
    = Spec.lin2 (a2_agg V c) (a2_h V c) (a2_x V c) (a2_wl V c) (fun j => a2_bl V c (ix2 0 j)) (a2_wr V c) (a2_ws V c) (fun j => a2_bs V c (ix2 0 j)) (((cfg2.win 8).blk t).view.emb (ix2 p q : S2000x256.Idx))
  refine lin2_of_blocks (a2_agg V c) (a2_h V c) (a2_x V c) (a2_wl V c) (a2_wr V c) (a2_ws V c) (a2_bl V c) (a2_bs V c)
    (iblk2 V c 0 t) (iblk2 V c 1 t) (iblk2 V c 2 t) (iblk2 V c 3 t) (iblk2 V c 5 t) (iblk2 V c 6 t) (iblk2 V c 4 t) (iblk2 V c 7 t) p q
    (((cfg2.win 8).blk t).view.emb (ix2 p q : S2000x256.Idx)) ?_ ?_ ?_ ?_ ?_ ?_ ?_ ?_
  · intro k
    show a2_agg V c (((cfg2.win 0).blk t).view.emb (ix2 p k : S2000x256.Idx)) = a2_agg V c (ix2 ((((cfg2.win 8).blk t).view.emb (ix2 p q : S2000x256.Idx)) 0) k)
    refine congrArg (a2_agg V c) (funext fun a => Fin.ext ?_)
    match a with
    | ⟨0, _⟩ => show win2_0.index t (0 : Fin 2) * 2000 + 1 * p.val = win2_8.index t (0 : Fin 2) * 2000 + 1 * p.val; omega
    | ⟨1, _⟩ => show win2_0.index t (1 : Fin 2) * 256 + 1 * k.val = k.val; omega
  · intro k
    show a2_h V c (((cfg2.win 1).blk t).view.emb (ix2 p k : S2000x256.Idx)) = a2_h V c (ix2 ((((cfg2.win 8).blk t).view.emb (ix2 p q : S2000x256.Idx)) 0) k)
    refine congrArg (a2_h V c) (funext fun a => Fin.ext ?_)
    match a with
    | ⟨0, _⟩ => show win2_1.index t (0 : Fin 2) * 2000 + 1 * p.val = win2_8.index t (0 : Fin 2) * 2000 + 1 * p.val; omega
    | ⟨1, _⟩ => show win2_1.index t (1 : Fin 2) * 256 + 1 * k.val = k.val; omega
  · intro k
    show a2_x V c (((cfg2.win 2).blk t).view.emb (ix2 p k : S2000x128.Idx)) = a2_x V c (ix2 ((((cfg2.win 8).blk t).view.emb (ix2 p q : S2000x256.Idx)) 0) k)
    refine congrArg (a2_x V c) (funext fun a => Fin.ext ?_)
    match a with
    | ⟨0, _⟩ => show win2_2.index t (0 : Fin 2) * 2000 + 1 * p.val = win2_8.index t (0 : Fin 2) * 2000 + 1 * p.val; omega
    | ⟨1, _⟩ => show win2_2.index t (1 : Fin 2) * 128 + 1 * k.val = k.val; omega
  · intro k
    show a2_wl V c (((cfg2.win 3).blk t).view.emb (ix2 k q : S256x256.Idx)) = a2_wl V c (ix2 k ((((cfg2.win 8).blk t).view.emb (ix2 p q : S2000x256.Idx)) 1))
    refine congrArg (a2_wl V c) (funext fun a => Fin.ext ?_)
    match a with
    | ⟨0, _⟩ => show win2_3.index t (0 : Fin 2) * 256 + 1 * k.val = k.val; omega
    | ⟨1, _⟩ => show win2_3.index t (1 : Fin 2) * 256 + 1 * q.val = win2_8.index t (1 : Fin 2) * 256 + 1 * q.val; omega
  · intro k
    show a2_wr V c (((cfg2.win 5).blk t).view.emb (ix2 k q : S256x256.Idx)) = a2_wr V c (ix2 k ((((cfg2.win 8).blk t).view.emb (ix2 p q : S2000x256.Idx)) 1))
    refine congrArg (a2_wr V c) (funext fun a => Fin.ext ?_)
    match a with
    | ⟨0, _⟩ => show win2_5.index t (0 : Fin 2) * 256 + 1 * k.val = k.val; omega
    | ⟨1, _⟩ => show win2_5.index t (1 : Fin 2) * 256 + 1 * q.val = win2_8.index t (1 : Fin 2) * 256 + 1 * q.val; omega
  · intro k
    show a2_ws V c (((cfg2.win 6).blk t).view.emb (ix2 k q : S128x256.Idx)) = a2_ws V c (ix2 k ((((cfg2.win 8).blk t).view.emb (ix2 p q : S2000x256.Idx)) 1))
    refine congrArg (a2_ws V c) (funext fun a => Fin.ext ?_)
    match a with
    | ⟨0, _⟩ => show win2_6.index t (0 : Fin 2) * 128 + 1 * k.val = k.val; omega
    | ⟨1, _⟩ => show win2_6.index t (1 : Fin 2) * 256 + 1 * q.val = win2_8.index t (1 : Fin 2) * 256 + 1 * q.val; omega
  · show a2_bl V c (((cfg2.win 4).blk t).view.emb (ix2 (0 : Fin 1) q : S1x256.Idx)) = a2_bl V c (ix2 (0 : Fin 1) ((((cfg2.win 8).blk t).view.emb (ix2 p q : S2000x256.Idx)) 1))
    refine congrArg (a2_bl V c) (funext fun a => Fin.ext ?_)
    match a with
    | ⟨0, _⟩ => show win2_4.index t (0 : Fin 2) * 1 + 1 * 0 = 0; omega
    | ⟨1, _⟩ => show win2_4.index t (1 : Fin 2) * 256 + 1 * q.val = win2_8.index t (1 : Fin 2) * 256 + 1 * q.val; omega
  · show a2_bs V c (((cfg2.win 7).blk t).view.emb (ix2 (0 : Fin 1) q : S1x256.Idx)) = a2_bs V c (ix2 (0 : Fin 1) ((((cfg2.win 8).blk t).view.emb (ix2 p q : S2000x256.Idx)) 1))
    refine congrArg (a2_bs V c) (funext fun a => Fin.ext ?_)
    match a with
    | ⟨0, _⟩ => show win2_7.index t (0 : Fin 2) * 1 + 1 * 0 = 0; omega
    | ⟨1, _⟩ => show win2_7.index t (1 : Fin 2) * 256 + 1 * q.val = win2_8.index t (1 : Fin 2) * 256 + 1 * q.val; omega

/-- An index of the array is in point t's block iff each coordinate is in the block's range on its axis. -/
theorem mem_blk (t : Fin cfg2.N) (i : S10000x256.Idx) :
    i ∈ ((cfg2.win 8).blk t).view.set ↔ ∀ a : Fin 2, win2_8.index t a * S2000x256.size a ≤ (i a).val ∧ (i a).val < win2_8.index t a * S2000x256.size a + S2000x256.size a := by
  show i ∈ ((View.whole main_v49).slice (win2_8.rect t)).set ↔ _
  rw [View.set_slice_whole, Rect.mem_set_unit]
  exact Iff.rfl

/-- The five row blocks tile the array: row r lies in the block of point r / 2000. -/
theorem cover (i : S10000x256.Idx) : ∃ t : Fin cfg2.N, (cfg2.win 8).flush t = true ∧ i ∈ ((cfg2.win 8).blk t).view.set := by
  have hi0 : (i 0).val < 10000 := (i 0).isLt
  have hi1 : (i 1).val < 256 := (i 1).isLt
  obtain ⟨t, ht⟩ : ∃ t : Fin cfg2.N, t.val = (i 0).val / 2000 := ⟨⟨(i 0).val / 2000, by show (i 0).val / 2000 < 5; omega⟩, rfl⟩
  obtain ⟨e0r, e0c, e1r, e1c, e2r, e2c, e3r, e3c, e4r, e4c, e5r, e5c, e6r, e6c, e7r, e7c, e8r, e8c⟩ := idx_facts t
  refine ⟨t, flush2_8 t, ?_⟩
  rw [mem_blk]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 256 ≤ (i 1).val ∧ (i 1).val < win2_8.index t (1 : Fin 2) * 256 + 256; omega

/-- After region 2 its output array holds the second combine, with the residual, of the arrays it found. -/
theorem arr2 (c : Dev nD) : (dat2 (F := Ideal) V c).arrAt 8 cfg2.N
    = Spec.lin2 (a2_agg V c) (a2_h V c) (a2_x V c) (a2_wl V c) (fun j => a2_bl V c (ix2 0 j)) (a2_wr V c) (a2_ws V c)
        (fun j => a2_bs V c (ix2 0 j)) := by
  exact (dat2 (F := Ideal) V c).arrAt_eq_of_cover 8 (Spec.lin2 (a2_agg V c) (a2_h V c) (a2_x V c) (a2_wl V c) (fun j => a2_bl V c (ix2 0 j)) (a2_wr V c) (a2_ws V c) (fun j => a2_bs V c (ix2 0 j))) (fun t _ => flushed_eq V c t) cover

end Cert.KernelIdeal.KValue.Reg2

end
-- ==== Proof.KChain2.lean ====
import proofs.«150488_j82076825026573_1_alg».proof.Proof.KChain1
import proofs.«150488_j82076825026573_1_alg».proof.Proof.KReg2
import proofs.«150488_j82076825026573_1_alg».proof.Proof.RefStages
import proofs.«150488_j82076825026573_1_alg».proof.Proof.AggLaw
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Cert.KernelIdeal.GenP
open Cert.KernelIdeal.KValue.Reg0 Cert.KernelIdeal.KValue.Reg1 Cert.KernelIdeal.KValue.Reg2
open Idealize.ShloMosaic Idealize.ShloMosaic.TcCoe Idealize.ShloMosaic.ValueIdx Idealize.SL.Sem
open Idealize.ShloMosaic.Pipeline (Dat Cfg Window)
open Idealize.ShloMosaic.StableHlo
open scoped BigOperators

/-
  The program's values from the second region's exit to its result. The second aggregate is again rows times the
  reciprocal floored counts against the reference's rows over the floored counts, now of the first layer's gathered
  rows; the last region's output is the reference's result: the same combine of equal aggregates, the equal first
  layer, x, and the same transposed weights and biases.
-/

variable (m : (ℓ : Loc nD τ sig) → Buf (Elt Ideal) ℓ) (ρ : Dev nD → PrngReg)

/-! ## Before the third region -/

set_option maxHeartbeats 4000000 in
/-- The second aggregate: the reference's. -/
theorem w5_v43 (c : Dev nD) : W5 m ρ c (Proc.devRef .tc main_v43)
    = Cert.ReferenceIdeal.Read.val_main_v75 (F := Ideal) (mX m c) (mE m c) (mG m c) (mB m c) (mWl1 m c) (mbl1 m c) (mWr1 m c) := by
  dsimp only [W5, hostOps2]; after_results
  rw [w4_v1, w4_v3, w4_v31, w4_v15]
  refine (Cert.AggLaw.scale_rows _ _ _ _ (fun _ => rfl) (fun _ => rfl) bcast_S10000_S10000x1_0 bcast_S10000_S10000x1_0
    bcast_S10000x1_S10000x256_0_1 bcast_S10000x1_S10000x256_0_1).trans ?_
  rfl

set_option maxHeartbeats 2000000 in
theorem w5_v31 (c : Dev nD) : W5 m ρ c (Proc.devRef .tc main_v31)
    = Cert.ReferenceIdeal.Read.val_main_v56 (F := Ideal) (mX m c) (mE m c) (mG m c) (mB m c) (mWl1 m c) (mbl1 m c) (mWr1 m c) := by
  dsimp only [W5, hostOps2]; after_results; exact w4_v31 m ρ c

set_option maxHeartbeats 2000000 in
theorem w5_arg0 (c : Dev nD) : W5 m ρ c (Proc.devRef .tc main_arg0) = mX m c := by
  dsimp only [W5, hostOps2]; after_results; exact w4_arg0 m ρ c

set_option maxHeartbeats 2000000 in
theorem w5_v44 (c : Dev nD) : W5 m ρ c (Proc.devRef .tc main_v44) = Cert.ReferenceIdeal.Read.val_main_v76 (F := Ideal) (mWl2 m c) := by
  dsimp only [W5, hostOps2]; after_results; rw [w4_arg7]; rfl

set_option maxHeartbeats 2000000 in
theorem w5_v45 (c : Dev nD) : W5 m ρ c (Proc.devRef .tc main_v45) = shapeCast S1x256 (mbl2 m c) shapeCasts_S256_S1x256 := by
  dsimp only [W5, hostOps2]; after_results; rw [w4_arg8]; rfl

set_option maxHeartbeats 2000000 in
theorem w5_v46 (c : Dev nD) : W5 m ρ c (Proc.devRef .tc main_v46) = Cert.ReferenceIdeal.Read.val_main_v81 (F := Ideal) (mWr2 m c) := by
  dsimp only [W5, hostOps2]; after_results; rw [w4_arg9]; rfl

set_option maxHeartbeats 2000000 in
theorem w5_v47 (c : Dev nD) : W5 m ρ c (Proc.devRef .tc main_v47) = Cert.ReferenceIdeal.Read.val_main_v84 (F := Ideal) (mWs m c) := by
  dsimp only [W5, hostOps2]; after_results; rw [w4_arg10]; rfl

set_option maxHeartbeats 2000000 in
theorem w5_v48 (c : Dev nD) : W5 m ρ c (Proc.devRef .tc main_v48) = shapeCast S1x256 (mbs m c) shapeCasts_S256_S1x256 := by
  dsimp only [W5, hostOps2]; after_results; rw [w4_arg11]; rfl

/-! ## After the third region: the result -/

/-- The program's result array is the reference's result of the launch memory's argument arrays. -/
theorem w6_v49 (c : Dev nD) : W6 m ρ c (Proc.devRef .tc main_v49)
    = Cert.ReferenceIdeal.Read.val_main_v89 (F := Ideal) (mX m c) (mE m c) (mG m c) (mB m c) (mWl1 m c) (mbl1 m c) (mWr1 m c) (mWl2 m c) (mbl2 m c) (mWr2 m c) (mWs m c) (mbs m c) := by
  refine (W6_arr m ρ c 8).trans ?_
  rw [arr2 (V5 m ρ) c, Cert.ReferenceIdeal.RefValue.ref_lin2]
  have h0 : a2_agg (V5 m ρ) c = Cert.ReferenceIdeal.Read.val_main_v75 (F := Ideal) (mX m c) (mE m c) (mG m c) (mB m c) (mWl1 m c) (mbl1 m c) (mWr1 m c) := w5_v43 m ρ c
  have h1 : a2_h (V5 m ρ) c = Cert.ReferenceIdeal.Read.val_main_v56 (F := Ideal) (mX m c) (mE m c) (mG m c) (mB m c) (mWl1 m c) (mbl1 m c) (mWr1 m c) := w5_v31 m ρ c
  have h2 : a2_x (V5 m ρ) c = mX m c := w5_arg0 m ρ c
  have h3 : a2_wl (V5 m ρ) c = Cert.ReferenceIdeal.Read.val_main_v76 (F := Ideal) (mWl2 m c) := w5_v44 m ρ c
  have h4 : (fun j => a2_bl (V5 m ρ) c (ix2 0 j)) = fun j => mbl2 m c (ix1 j) := funext fun j => by
    show W5 m ρ c (Proc.devRef .tc main_v45) (ix2 0 j) = _
    rw [w5_v45]; exact row_cast_apply _ _ j
  have h5 : a2_wr (V5 m ρ) c = Cert.ReferenceIdeal.Read.val_main_v81 (F := Ideal) (mWr2 m c) := w5_v46 m ρ c
  have h6 : a2_ws (V5 m ρ) c = Cert.ReferenceIdeal.Read.val_main_v84 (F := Ideal) (mWs m c) := w5_v47 m ρ c
  have h7 : (fun j => a2_bs (V5 m ρ) c (ix2 0 j)) = fun j => mbs m c (ix1 j) := funext fun j => by
    show W5 m ρ c (Proc.devRef .tc main_v48) (ix2 0 j) = _
    rw [w5_v48]; exact row_cast_apply _ _ j
  rw [h0, h1, h2, h3, h4, h5, h6, h7]

end Cert.KernelIdeal.KValue

end
-- ==== Proof.lean ====
/-
  Two layers of mean-aggregating graph convolution over 10000 nodes and 640000 edges, after a batch normalisation and
  with a linear residual: the program computes the normalisation and the two dense combines in three grid kernels and
  the edge gathers and segment sums on the host; the reference computes everything on the host.

  On the extended reals both are ONE function of the arguments. The normalised features agree: column means and biased
  variances as sums over the 10000 rows divided by 10000, the same rsqrt, scale and shift. The aggregates agree: both
  gather the same rows and sum them per target segment; the program then multiplies each row by 1 / max(n, 1), the
  reference divides it by max(n, 1), and off zero the quotient is the product with the inverse (Spec.scale_law; a
  floored count is never zero), so no finiteness of the inputs is used. The combines agree: a kernel's matrix product
  into a zero accumulator and the host's contraction are the same sums, block by block of 2000 rows, with the same
  transposed weights, biases, positive part and residual, added in the same order.

  The frames of the two kernel programs are the generated frame certificates (their launch module repaired in a
  copy); the reference's frame is its generated run with the result dropped; the idealization rewrote nothing.
-/
import proofs.«150488_j82076825026573_1_alg».proof.Defs
import proofs.«150488_j82076825026573_1_alg».proof.Proof.Gen.Kernel
import proofs.«150488_j82076825026573_1_alg».proof.Proof.Gen.KernelIdeal
import proofs.«150488_j82076825026573_1_alg».proof.Proof.Gen.ReferenceIdeal
import proofs.«150488_j82076825026573_1_alg».proof.Proof.Gen.Pre_finite_inputs
import proofs.«150488_j82076825026573_1_alg».proof.Proof.Gen.ReferenceIdeal.Run
import proofs.«150488_j82076825026573_1_alg».proof.Proof.Gen.ReferenceIdeal.Read
import proofs.«150488_j82076825026573_1_alg».proof.Proof.KernelFrame
import proofs.«150488_j82076825026573_1_alg».proof.Proof.KernelIdealFrame
import proofs.«150488_j82076825026573_1_alg».proof.Proof.KernelIdealRun
import proofs.«150488_j82076825026573_1_alg».proof.Proof.KChain2
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the reference's composed stage of the (agreeing) argument arrays. -/
theorem algebraic : Cert.algebraic_KernelIdeal_ReferenceIdeal := by
  intro m ρ m' ρ' _ hagree
  refine ⟨fun c => Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KValue.w6_v49 m ρ c), (h c).2⟩)
      (Cert.KernelIdeal.GenP.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v89_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
